-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S8192x4096 .f32) (main_arg1 : FVec F S4096x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S8192x4096 : Shape := ⟨2, ![8192, 4096]⟩
abbrev S4096x4096 : Shape := ⟨2, ![4096, 4096]⟩
abbrev S7 : Shape := ⟨1, ![7]⟩
abbrev S_ : Shape := ⟨0, ![]⟩
abbrev S4096 : Shape := ⟨1, ![4096]⟩
abbrev S4096x1 : Shape := ⟨2, ![4096, 1]⟩
abbrev S1x7 : Shape := ⟨2, ![1, 7]⟩
abbrev S4096x7 : Shape := ⟨2, ![4096, 7]⟩
abbrev S4096x7x1 : Shape := ⟨3, ![4096, 7, 1]⟩
abbrev S1 : Shape := ⟨1, ![1]⟩
abbrev S1x1x1 : Shape := ⟨3, ![1, 1, 1]⟩
abbrev S7x4096 : Shape := ⟨2, ![7, 4096]⟩
abbrev S8x4096 : Shape := ⟨2, ![8, 4096]⟩
abbrev S512x4096 : Shape := ⟨2, ![512, 4096]⟩
abbrev S256x4096 : Shape := ⟨2, ![256, 4096]⟩
abbrev S1x4096 : Shape := ⟨2, ![1, 4096]⟩

abbrev nBuf : Space → Nat
  | .hbm => 57
  | .vmem => 5
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S7, .i32⟩
  | .hbm, ⟨3, _⟩ => ⟨S_, .i32⟩
  | .hbm, ⟨4, _⟩ => ⟨S7, .i32⟩
  | .hbm, ⟨5, _⟩ => ⟨S7, .i32⟩
  | .hbm, ⟨6, _⟩ => ⟨S4096, .i32⟩
  | .hbm, ⟨7, _⟩ => ⟨S4096x1, .i32⟩
  | .hbm, ⟨8, _⟩ => ⟨S1x7, .i32⟩
  | .hbm, ⟨9, _⟩ => ⟨S4096x7, .i32⟩
  | .hbm, ⟨10, _⟩ => ⟨S4096x7, .i32⟩
  | .hbm, ⟨11, _⟩ => ⟨S4096x7, .i32⟩
  | .hbm, ⟨12, _⟩ => ⟨S_, .i32⟩
  | .hbm, ⟨13, _⟩ => ⟨S4096x7, .i32⟩
  | .hbm, ⟨14, _⟩ => ⟨S4096x7, .i1⟩
  | .hbm, ⟨15, _⟩ => ⟨S_, .i32⟩
  | .hbm, ⟨16, _⟩ => ⟨S4096x7, .i32⟩
  | .hbm, ⟨17, _⟩ => ⟨S4096x7, .i1⟩
  | .hbm, ⟨18, _⟩ => ⟨S4096x7, .i1⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S4096x7, .i32⟩
  | .hbm, ⟨23, _⟩ => ⟨S4096x7, .i32⟩
  | .hbm, ⟨24, _⟩ => ⟨S_, .i32⟩
  | .hbm, ⟨25, _⟩ => ⟨S4096x7, .i32⟩
  | .hbm, ⟨26, _⟩ => ⟨S4096x7, .i32⟩
  | .hbm, ⟨27, _⟩ => ⟨S_, .i32⟩
  | .hbm, ⟨28, _⟩ => ⟨S4096x7, .i32⟩
  | .hbm, ⟨29, _⟩ => ⟨S4096x7, .i1⟩
  | .hbm, ⟨30, _⟩ => ⟨S_, .i32⟩
  | .hbm, ⟨31, _⟩ => ⟨S4096x7, .i32⟩
  | .hbm, ⟨32, _⟩ => ⟨S4096x7, .i32⟩
  | .hbm, ⟨33, _⟩ => ⟨S4096x7, .i32⟩
  | .hbm, ⟨34, _⟩ => ⟨S4096x7x1, .i32⟩
  | .hbm, ⟨35, _⟩ => ⟨S1, .i32⟩
  | .hbm, ⟨36, _⟩ => ⟨S_, .i32⟩
  | .hbm, ⟨37, _⟩ => ⟨S4096x7x1, .i32⟩
  | .hbm, ⟨38, _⟩ => ⟨S4096x7x1, .i1⟩
  | .hbm, ⟨39, _⟩ => ⟨S1x1x1, .i32⟩
  | .hbm, ⟨40, _⟩ => ⟨S4096x7x1, .i32⟩
  | .hbm, ⟨41, _⟩ => ⟨S4096x7x1, .i1⟩
  | .hbm, ⟨42, _⟩ => ⟨S4096x7x1, .i1⟩
  | .hbm, ⟨43, _⟩ => ⟨S_, .i1⟩
  | .hbm, ⟨44, _⟩ => ⟨S4096x7, .i1⟩
  | .hbm, ⟨45, _⟩ => ⟨S4096x7, .f32⟩
  | .hbm, ⟨46, _⟩ => ⟨S_, .f32⟩
  | .hbm, ⟨47, _⟩ => ⟨S4096x7, .f32⟩
  | .hbm, ⟨48, _⟩ => ⟨S4096x7, .f32⟩
  | .hbm, ⟨49, _⟩ => ⟨S_, .f32⟩
  | .hbm, ⟨50, _⟩ => ⟨S4096x7, .f32⟩
  | .hbm, ⟨51, _⟩ => ⟨S4096x7, .f32⟩
  | .hbm, ⟨52, _⟩ => ⟨S7x4096, .f32⟩
  | .hbm, ⟨53, _⟩ => ⟨S_, .i32⟩
  | .hbm, ⟨54, _⟩ => ⟨S_, .f32⟩
  | .hbm, ⟨55, _⟩ => ⟨S8x4096, .f32⟩
  | .hbm, ⟨56, _⟩ => ⟨S8192x4096, .f32⟩
  | .local _ .vmem, ⟨0, _⟩ => ⟨S512x4096, .f32⟩
  | .local _ .vmem, ⟨1, _⟩ => ⟨S512x4096, .f32⟩
  | .local _ .vmem, ⟨2, _⟩ => ⟨S8x4096, .f32⟩
  | .local _ .vmem, ⟨3, _⟩ => ⟨S512x4096, .f32⟩
  | .local _ .vmem, ⟨4, _⟩ => ⟨S512x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c_0 : Ref sig .tc := ⟨.hbm, 12, rfl⟩
abbrev main_v9 : Ref sig .tc := ⟨.hbm, 13, rfl⟩
abbrev main_v10 : Ref sig .tc := ⟨.hbm, 14, rfl⟩
abbrev main_c_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c_2 : Ref sig .tc := ⟨.hbm, 19, rfl⟩
abbrev main_c_3 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_v14 : Ref sig .tc := ⟨.hbm, 26, rfl⟩
abbrev main_call1_c : Ref sig .tc := ⟨.hbm, 27, rfl⟩
abbrev main_call1_v0 : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_c_1 : Ref sig .tc := ⟨.hbm, 35, rfl⟩
abbrev main_call1_c_2 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_3 : Ref sig .tc := ⟨.hbm, 43, rfl⟩
abbrev main_call1_v12 : Ref sig .tc := ⟨.hbm, 44, rfl⟩
abbrev main_call1_v13 : Ref sig .tc := ⟨.hbm, 45, rfl⟩
abbrev main_call1_cst : Ref sig .tc := ⟨.hbm, 46, rfl⟩
abbrev main_call1_v14 : Ref sig .tc := ⟨.hbm, 47, rfl⟩
abbrev main_v15 : Ref sig .tc := ⟨.hbm, 48, rfl⟩
abbrev main_cst : Ref sig .tc := ⟨.hbm, 49, rfl⟩
abbrev main_call2_v0 : Ref sig .tc := ⟨.hbm, 50, rfl⟩
abbrev main_v16 : Ref sig .tc := ⟨.hbm, 51, rfl⟩
abbrev main_v17 : Ref sig .tc := ⟨.hbm, 52, rfl⟩
abbrev main_c_4 : Ref sig .tc := ⟨.hbm, 53, rfl⟩
abbrev main_call3_v0 : Ref sig .tc := ⟨.hbm, 54, rfl⟩
abbrev main_v18 : Ref sig .tc := ⟨.hbm, 55, rfl⟩
abbrev main_v19 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c2_i32 : BitVec 32 := 2#32
  let v0 : BitVec 32 := Scalar.addi c0_i32 c2_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg4 : BitVec 32 := Scf.iv c0_i32 c1_i32 k0_t1
  let c256_i32 : BitVec 32 := 256#32
  let v1 : BitVec 32 := Scalar.muli arg4 c256_i32
  v1
def k0_off1 (k0_t1 : Fin k0_t1_loop.trips) : Fin 2 → Nat :=
  let c0_i32 : BitVec 32 := 0#32
  let c1_i32 : BitVec 32 := 1#32
  let arg4 : BitVec 32 := Scf.iv c0_i32 c1_i32 k0_t1
  let c256_i32 : BitVec 32 := 256#32
  let v1 : BitVec 32 := Scalar.muli arg4 c256_i32
  let v2 : BitVec 32 := v1
  let v3 : Index := Scalar.indexCast v2
  let c0 : Index := 0#32
  ![v3.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S7 : S_.BroadcastsInDim S7 (![] : Fin 0 → Fin S7.rank)
  bcast_S4096_S4096x1_0 : S4096.BroadcastsInDim S4096x1 (![0] : Fin 1 → Fin S4096x1.rank)
  bcast_S7_S1x7_1 : S7.BroadcastsInDim S1x7 (![1] : Fin 1 → Fin S1x7.rank)
  bcast_S4096x1_S4096x7_0_1 : S4096x1.BroadcastsInDim S4096x7 (![0, 1] : Fin 2 → Fin S4096x7.rank)
  bcast_S1x7_S4096x7_0_1 : S1x7.BroadcastsInDim S4096x7 (![0, 1] : Fin 2 → Fin S4096x7.rank)
  bcast_S_S4096x7 : S_.BroadcastsInDim S4096x7 (![] : Fin 0 → Fin S4096x7.rank)
  shapeCasts_S4096x7_S4096x7x1 : S4096x7.ShapeCasts S4096x7x1
  bcast_S_S4096x7x1 : S_.BroadcastsInDim S4096x7x1 (![] : Fin 0 → Fin S4096x7x1.rank)
  bcast_S1_S1x1x1_2 : S1.BroadcastsInDim S1x1x1 (![2] : Fin 1 → Fin S1x1x1.rank)
  bcast_S1x1x1_S4096x7x1_0_1_2 : S1x1x1.BroadcastsInDim S4096x7x1 (![0, 1, 2] : Fin 3 → Fin S4096x7x1.rank)
  reducesTo_S4096x7x1_S4096x7_d2 : S4096x7x1.ReducesTo [2] S4096x7
  h_S_ : 0 < S_.numel
  transposes_S4096x7_S7x4096_1_0 : S4096x7.Transposes [1, 0] S7x4096
  pads_S7x4096_S8x4096_010_000 : S7x4096.Pads (![0, 0] : Fin 2 → Nat) ![1, 0] ![0, 0] S8x4096
  h_S256x4096 : 0 < S256x4096.numel
  inb_S8x4096_S1x4096_3_0 : ∀ a, (![3, 0] : Fin 2 → Nat) a + S1x4096.size a ≤ S8x4096.size a
  h_S1x4096 : 0 < S1x4096.numel
  shapeCasts_S1x4096_S1x4096 : S1x4096.ShapeCasts S1x4096
  broadcasts_S1x4096_S256x4096 : S1x4096.Broadcasts S256x4096
  rotates_S256x4096_d1 : S256x4096.Rotates 1 none
  shapeCasts_S256x4096_S256x4096 : S256x4096.ShapeCasts S256x4096
  inb_S8x4096_S1x4096_0_0 : ∀ a, (![0, 0] : Fin 2 → Nat) a + S1x4096.size a ≤ S8x4096.size a
  inb_S8x4096_S1x4096_1_0 : ∀ a, (![1, 0] : Fin 2 → Nat) a + S1x4096.size a ≤ S8x4096.size a
  inb_S8x4096_S1x4096_2_0 : ∀ a, (![2, 0] : Fin 2 → Nat) a + S1x4096.size a ≤ S8x4096.size a
  inb_S8x4096_S1x4096_4_0 : ∀ a, (![4, 0] : Fin 2 → Nat) a + S1x4096.size a ≤ S8x4096.size a
  inb_S8x4096_S1x4096_5_0 : ∀ a, (![5, 0] : Fin 2 → Nat) a + S1x4096.size a ≤ S8x4096.size a
  inb_S8x4096_S1x4096_6_0 : ∀ a, (![6, 0] : Fin 2 → Nat) a + S1x4096.size a ≤ S8x4096.size a
  gather_S4096x4096_S4096x7x1_S4096x7_n_1_0_0_1_2_11_wf : GatherDims.WF S4096x4096 S4096x7x1 S4096x7 [] [1] [0] [1] [0] 2 ![1, 1]
  hrank0 : 0 < grid0.rank
  k0_t1_ok : k0_t1_loop.OK
  k0_mult1_dvd : ∀ k0_t1 : Fin k0_t1_loop.trips, 256 ∣ (k0_mult1 k0_t1).toNat
  k0_off1_inb : ∀ k0_t1 : Fin k0_t1_loop.trips, ∀ a, (k0_off1 k0_t1) a + S256x4096.size a ≤ S512x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x4096.size a ≤ S8x4096.size a
  hwx0_1 : ∀ i : grid0.Coords, EltTy.bits .f32 = 32 ∨ (Rect.block (s := S8x4096) S8x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x4096.size a ≤ S8192x4096.size a
  hwx0_2 : ∀ i : grid0.Coords, EltTy.bits .f32 = 32 ∨ (Rect.block (s := S8192x4096) S512x4096.size (cc0_transform_2 i) (hinb0_2 i)).WholeWords (EltTy.packing .f32)

variable [Facts₀]

def gather_S4096x4096_S4096x7x1_S4096x7_n_1_0_0_1_2_11 : GatherDims S4096x4096 S4096x7x1 S4096x7 where
  offsetDims := []
  collapsedSliceDims := [1]
  operandBatchingDims := [0]
  startIndicesBatchingDims := [0]
  startIndexMap := [1]
  indexVectorDim := 2
  sliceSizes := ![1, 1]
  wf := gather_S4096x4096_S4096x7x1_S4096x7_n_1_0_0_1_2_11_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S8x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v19) S512x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S4096x1 : Shape := ⟨2, ![4096, 1]⟩
abbrev S1x4096 : Shape := ⟨2, ![1, 4096]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .i32⟩
  | .hbm, ⟨3, _⟩ => ⟨S4096x1, .i32⟩
  | .hbm, ⟨4, _⟩ => ⟨S4096, .i32⟩
  | .hbm, ⟨5, _⟩ => ⟨S1x4096, .i32⟩
  | .hbm, ⟨6, _⟩ => ⟨S_, .i32⟩
  | .hbm, ⟨7, _⟩ => ⟨S4096x1, .i32⟩
  | .hbm, ⟨8, _⟩ => ⟨S4096x1, .i32⟩
  | .hbm, ⟨9, _⟩ => ⟨S4096x4096, .i32⟩
  | .hbm, ⟨10, _⟩ => ⟨S4096x4096, .i32⟩
  | .hbm, ⟨11, _⟩ => ⟨S4096x4096, .i1⟩
  | .hbm, ⟨12, _⟩ => ⟨S_, .i32⟩
  | .hbm, ⟨13, _⟩ => ⟨S4096x1, .i32⟩
  | .hbm, ⟨14, _⟩ => ⟨S4096x1, .i32⟩
  | .hbm, ⟨15, _⟩ => ⟨S4096x4096, .i32⟩
  | .hbm, ⟨16, _⟩ => ⟨S4096x4096, .i32⟩
  | .hbm, ⟨17, _⟩ => ⟨S4096x4096, .i1⟩
  | .hbm, ⟨18, _⟩ => ⟨S4096x4096, .i1⟩
  | .hbm, ⟨19, _⟩ => ⟨S4096x4096, .f32⟩
  | .hbm, ⟨20, _⟩ => ⟨S4096x4096, .f32⟩
  | .hbm, ⟨21, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩

abbrev nD : Nat := 1
abbrev τ : Topo := Topo.v7x

variable {F : FTy → Type} [FloatOps F]

class Facts₀ : Prop where
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S_S4096x1 : S_.BroadcastsInDim S4096x1 (![] : Fin 0 → Fin S4096x1.rank)
  bcast_S1x4096_S4096x4096_0_1 : S1x4096.BroadcastsInDim S4096x4096 (![0, 1] : Fin 2 → Fin S4096x4096.rank)
  bcast_S4096x1_S4096x4096_0_1 : S4096x1.BroadcastsInDim S4096x4096 (![0, 1] : Fin 2 → Fin S4096x4096.rank)
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.KTripPieces.lean ====
/-
  What one trip of the body's loop leaves in the output block.  Trip `k` works on rows `[256 k, 256 k + 256)` of the block:
  it stores there seven times, each store but the first made of what the store before it left in those rows.  So the
  trip's writes are seven pieces on ONE rectangle, the newest hiding the older six: inside the trip's rows the block ends
  at the last stored value, outside them it is untouched.  Nothing the trip stores depends on what the block held
  before the trip, because its first store covers the rectangle whole.

  The generated trip is opened here, once; everything after cites `tripPieces_eq`.  The two trips' pieces together
  (`bodyPieces`) are what the loop's generated recursion over the trips amounts to, whatever the block held before the
  loop (`pb_eq`): the body's pieces are a closed list.
-/
import proofs.«412182_j6811818132414_3_alg».proof.Proof.Gen.Kernel.Loops
import Idealize.ShloMosaic.Lib.Pipeline.FrameBody
import Idealize.ShloMosaic.Lib.WritesUnit

noncomputable section

open Idealize.ShloMosaic Idealize.ShloMosaic.Tactic Idealize.SL.Sem
open Cert.Kernel Cert.Kernel.Gen

namespace Cert.Kernel.Taps

variable {F : FTy → Type} [FloatOps F]

/-- The rows trip `k` works on, as a rectangle of the block. -/
abbrev chunkRect (k : Fin k0_t1_loop.trips) : Rect S512x4096 :=
  Rect.unit (s := S512x4096) (k0_off1 k) S256x4096.size (k0_off1_inb k)

/-- The seven stored values of a trip, each built on the one before: `r` the chunk of the input block, `w₃, w₀, w₁, w₂, w₄,
    w₅, w₆` the table's rows in the order the trip uses them. -/
def stored1 (r : Vec F S256x4096 .f32) (w3 : Vec F S1x4096 .f32) : FVec F S256x4096 .f32 := k0_pay1 r w3
def stored2 (r : Vec F S256x4096 .f32) (w3 w0 : Vec F S1x4096 .f32) : FVec F S256x4096 .f32 := k0_pay2 r (stored1 r w3) w0
def stored3 (r : Vec F S256x4096 .f32) (w3 w0 w1 : Vec F S1x4096 .f32) : FVec F S256x4096 .f32 := k0_pay3 r (stored2 r w3 w0) w1
def stored4 (r : Vec F S256x4096 .f32) (w3 w0 w1 w2 : Vec F S1x4096 .f32) : FVec F S256x4096 .f32 :=
  k0_pay6 (k0_pay4 r) (k0_pay5 (stored3 r w3 w0 w1)) w2
def stored5 (r : Vec F S256x4096 .f32) (w3 w0 w1 w2 w4 : Vec F S1x4096 .f32) : FVec F S256x4096 .f32 :=
  k0_pay7 r (stored4 r w3 w0 w1 w2) w4
def stored6 (r : Vec F S256x4096 .f32) (w3 w0 w1 w2 w4 w5 : Vec F S1x4096 .f32) : FVec F S256x4096 .f32 :=
  k0_pay8 r (stored5 r w3 w0 w1 w2 w4) w5
def stored7 (r : Vec F S256x4096 .f32) (w3 w0 w1 w2 w4 w5 w6 : Vec F S1x4096 .f32) : FVec F S256x4096 .f32 :=
  k0_pay9 r (stored6 r w3 w0 w1 w2 w4 w5) w6

section Trip

variable (𝒱 : Variants) (c : Dev nD) (bd : Option 𝒱.V) (i : grid0.Coords)
  (arg1 : Memref sig .tc .vmem S512x4096 .f32) (harg1 : arg1.IsWhole) (arg2 : Memref sig .tc .vmem S8x4096 .f32) (harg2 : arg2.IsWhole)
  (arg3 : Memref sig .tc .vmem S512x4096 .f32) (harg3 : arg3.IsWhole)
  (X1 : BufTy.Contents (Elt F) arg1.view.ty) (X2 : BufTy.Contents (Elt F) arg2.view.ty)

/-- The chunk of the input block trip `k` loads. -/
def chunkOf (k : Fin k0_t1_loop.trips) : Vec F S256x4096 .f32 :=
  View.readAt (Elt F) arg1.view (chunkRect k).toLoadRect X1

/-- The table's rows as the trip loads them. -/
def row0 : Vec F S1x4096 .f32 := View.readAt (Elt F) arg2.view (Rect.unit (s := S8x4096) ![0, 0] S1x4096.size inb_S8x4096_S1x4096_0_0).toLoadRect X2
def row1 : Vec F S1x4096 .f32 := View.readAt (Elt F) arg2.view (Rect.unit (s := S8x4096) ![1, 0] S1x4096.size inb_S8x4096_S1x4096_1_0).toLoadRect X2
def row2 : Vec F S1x4096 .f32 := View.readAt (Elt F) arg2.view (Rect.unit (s := S8x4096) ![2, 0] S1x4096.size inb_S8x4096_S1x4096_2_0).toLoadRect X2
def row3 : Vec F S1x4096 .f32 := View.readAt (Elt F) arg2.view (Rect.unit (s := S8x4096) ![3, 0] S1x4096.size inb_S8x4096_S1x4096_3_0).toLoadRect X2
def row4 : Vec F S1x4096 .f32 := View.readAt (Elt F) arg2.view (Rect.unit (s := S8x4096) ![4, 0] S1x4096.size inb_S8x4096_S1x4096_4_0).toLoadRect X2
def row5 : Vec F S1x4096 .f32 := View.readAt (Elt F) arg2.view (Rect.unit (s := S8x4096) ![5, 0] S1x4096.size inb_S8x4096_S1x4096_5_0).toLoadRect X2
def row6 : Vec F S1x4096 .f32 := View.readAt (Elt F) arg2.view (Rect.unit (s := S8x4096) ![6, 0] S1x4096.size inb_S8x4096_S1x4096_6_0).toLoadRect X2

/-- The last value trip `k` stores. -/
def lastOf (k : Fin k0_t1_loop.trips) : FVec F S256x4096 .f32 :=
  stored7 (chunkOf arg1 X1 k) (row3 arg2 X2) (row0 arg2 X2) (row1 arg2 X2) (row2 arg2 X2) (row4 arg2 X2) (row5 arg2 X2) (row6 arg2 X2)

/-- The loop makes two trips. -/
abbrev trip0 : Fin k0_t1_loop.trips := ⟨0, by decide⟩
abbrev trip1 : Fin k0_t1_loop.trips := ⟨1, by decide⟩

/-- The seven stores of trip `k` through its one rectangle, newest first. -/
def tripList (k : Fin k0_t1_loop.trips) : List (View.Piece (Elt F) S512x4096 .f32) :=
  [ ⟨chunkRect k, stored7 (chunkOf arg1 X1 k) (row3 arg2 X2) (row0 arg2 X2) (row1 arg2 X2) (row2 arg2 X2) (row4 arg2 X2) (row5 arg2 X2) (row6 arg2 X2)⟩,
    ⟨chunkRect k, stored6 (chunkOf arg1 X1 k) (row3 arg2 X2) (row0 arg2 X2) (row1 arg2 X2) (row2 arg2 X2) (row4 arg2 X2) (row5 arg2 X2)⟩,
    ⟨chunkRect k, stored5 (chunkOf arg1 X1 k) (row3 arg2 X2) (row0 arg2 X2) (row1 arg2 X2) (row2 arg2 X2) (row4 arg2 X2)⟩,
    ⟨chunkRect k, stored4 (chunkOf arg1 X1 k) (row3 arg2 X2) (row0 arg2 X2) (row1 arg2 X2) (row2 arg2 X2)⟩,
    ⟨chunkRect k, stored3 (chunkOf arg1 X1 k) (row3 arg2 X2) (row0 arg2 X2) (row1 arg2 X2)⟩,
    ⟨chunkRect k, stored2 (chunkOf arg1 X1 k) (row3 arg2 X2) (row0 arg2 X2)⟩,
    ⟨chunkRect k, stored1 (chunkOf arg1 X1 k) (row3 arg2 X2)⟩ ]

/-- THE TRIP'S PIECES: seven stores through the trip's one rectangle, none depending on the contents `f` the trip finds.
    The generated trip's witness, opened: every value the trip reads back through its rectangle is the value it stored
    there last. -/
theorem tripPieces_eq (k : Fin k0_t1_loop.trips) (f : BufTy.Contents (Elt F) arg3.view.ty) :
    tripL_k0_t1 (F := F) 𝒱 c bd i arg1 harg1 arg2 harg2 arg3 harg3 X1 X2 k f = tripList arg1 arg2 X1 X2 k := by
  unfold tripL_k0_t1 trip_k0_t1 tripList
  dsimp only
  sl_unfold_words
  simp only [View.readCov_cons_toLoadRect]
  rfl

/-- Everything the body stores: the second trip's pieces over the first's. -/
def bodyPieces : List (View.Piece (Elt F) S512x4096 .f32) :=
  tripList arg1 arg2 X1 X2 trip1 ++ tripList arg1 arg2 X1 X2 trip0

/-- THE LOOP'S PIECES, whatever the block held when the loop was entered: since no trip's pieces depend on what the trip
    finds, the pieces of both trips are one list that does not mention the contents at entry. -/
theorem pb_eq (G : BufTy.Contents (Elt F) arg3.view.ty) :
    pb_k0_t1 (F := F) 𝒱 c bd i arg1 harg1 arg2 harg2 arg3 harg3 X1 X2 G (Scf.trips k0_t1_loop.lb k0_t1_loop.ub k0_t1_loop.st)
      = bodyPieces arg1 arg2 X1 X2 := by
  have e0 : pb_k0_t1 (F := F) 𝒱 c bd i arg1 harg1 arg2 harg2 arg3 harg3 X1 X2 G 0 = [] := rfl
  have e1 : pb_k0_t1 (F := F) 𝒱 c bd i arg1 harg1 arg2 harg2 arg3 harg3 X1 X2 G (trip0.val + 1) = tripList arg1 arg2 X1 X2 trip0 := by
    rw [pb_k0_t1_succ, tripPieces_eq]
    show _ ++ pb_k0_t1 (F := F) 𝒱 c bd i arg1 harg1 arg2 harg2 arg3 harg3 X1 X2 G 0 = _
    rw [e0, List.append_nil]
  have e2 : pb_k0_t1 (F := F) 𝒱 c bd i arg1 harg1 arg2 harg2 arg3 harg3 X1 X2 G (trip1.val + 1) = bodyPieces arg1 arg2 X1 X2 := by
    rw [pb_k0_t1_succ, tripPieces_eq]
    show _ ++ pb_k0_t1 (F := F) 𝒱 c bd i arg1 harg1 arg2 harg2 arg3 harg3 X1 X2 G (trip0.val + 1) = _
    rw [e1]
    rfl
  exact (congrArg (pb_k0_t1 (F := F) 𝒱 c bd i arg1 harg1 arg2 harg2 arg3 harg3 X1 X2 G)
    (by decide : Scf.trips k0_t1_loop.lb k0_t1_loop.ub k0_t1_loop.st = trip1.val + 1)).trans e2

variable (v : View sig .tc .vmem S512x4096 .f32) (g : v.ty.Contents (Elt F))

/-- Inside the trip's rows, whatever was written before: the trip's last stored value. -/
theorem read_tripList_of_mem (k : Fin k0_t1_loop.trips) (L : List (View.Piece (Elt F) S512x4096 .f32))
    (y : S512x4096.Idx) (x : S256x4096.Idx) (hx0 : (y (0 : Fin 2)).val = 256 * k.val + (x (0 : Fin 2)).val)
    (hx1 : (y (1 : Fin 2)).val = (x (1 : Fin 2)).val) :
    v.read (Elt F) (v.writes (Elt F) g (tripList arg1 arg2 X1 X2 k ++ L)) y = lastOf arg1 arg2 X1 X2 k x := by
  unfold tripList
  rw [List.cons_append]
  exact View.read_writes_cons_rows_of_mem v g (k0_off1_inb k) _ _ y x (k0_off1_eq k) hx0 hx1

/-- Outside the trip's rows the trip changes nothing. -/
theorem read_tripList_of_not_mem (k : Fin k0_t1_loop.trips) (L : List (View.Piece (Elt F) S512x4096 .f32))
    (y : S512x4096.Idx) (h : (y (0 : Fin 2)).val < 256 * k.val ∨ 256 * k.val + 256 ≤ (y (0 : Fin 2)).val) :
    v.read (Elt F) (v.writes (Elt F) g (tripList arg1 arg2 X1 X2 k ++ L)) y = v.read (Elt F) (v.writes (Elt F) g L) y := by
  unfold tripList
  simp only [List.cons_append, List.nil_append]
  rw [View.read_writes_cons_rows_of_not_mem v g (k0_off1_inb k) _ _ y (k0_off1_eq k) rfl h,
    View.read_writes_cons_rows_of_not_mem v g (k0_off1_inb k) _ _ y (k0_off1_eq k) rfl h,
    View.read_writes_cons_rows_of_not_mem v g (k0_off1_inb k) _ _ y (k0_off1_eq k) rfl h,
    View.read_writes_cons_rows_of_not_mem v g (k0_off1_inb k) _ _ y (k0_off1_eq k) rfl h,
    View.read_writes_cons_rows_of_not_mem v g (k0_off1_inb k) _ _ y (k0_off1_eq k) rfl h,
    View.read_writes_cons_rows_of_not_mem v g (k0_off1_inb k) _ _ y (k0_off1_eq k) rfl h,
    View.read_writes_cons_rows_of_not_mem v g (k0_off1_inb k) _ _ y (k0_off1_eq k) rfl h]

/-- THE BLOCK AFTER THE BODY, at an entry of the upper half (rows below 256): what the first trip stored last. -/
theorem read_body_upper (y : S512x4096.Idx) (x : S256x4096.Idx) (hx0 : (y (0 : Fin 2)).val = (x (0 : Fin 2)).val)
    (hx1 : (y (1 : Fin 2)).val = (x (1 : Fin 2)).val) :
    v.read (Elt F) (v.writes (Elt F) g (bodyPieces arg1 arg2 X1 X2)) y = lastOf arg1 arg2 X1 X2 trip0 x := by
  unfold bodyPieces
  have hx : (x (0 : Fin 2)).val < 256 := (x (0 : Fin 2)).isLt
  rw [read_tripList_of_not_mem arg1 arg2 X1 X2 v g trip1 _ y (Or.inl (by show (y (0 : Fin 2)).val < 256 * 1; omega))]
  rw [← List.append_nil (tripList arg1 arg2 X1 X2 trip0)]
  exact read_tripList_of_mem arg1 arg2 X1 X2 v g trip0 [] y x (by show (y (0 : Fin 2)).val = 256 * 0 + _; omega) hx1

/-- … and at an entry of the lower half (rows from 256): what the second trip stored last. -/
theorem read_body_lower (y : S512x4096.Idx) (x : S256x4096.Idx) (hx0 : (y (0 : Fin 2)).val = 256 + (x (0 : Fin 2)).val)
    (hx1 : (y (1 : Fin 2)).val = (x (1 : Fin 2)).val) :
    v.read (Elt F) (v.writes (Elt F) g (bodyPieces arg1 arg2 X1 X2)) y = lastOf arg1 arg2 X1 X2 trip1 x := by
  unfold bodyPieces
  exact read_tripList_of_mem arg1 arg2 X1 X2 v g trip1 _ y x (by show (y (0 : Fin 2)).val = 256 * 1 + _; omega) hx1

end Trip

end Cert.Kernel.Taps

end
-- ==== Proof.TripPieces.lean ====
/-
  What one trip of the body's loop leaves in the output block.  Trip `k` works on rows `[256 k, 256 k + 256)` of the block:
  it stores there seven times, each store but the first made of what the store before it left in those rows.  So the
  trip's writes are seven pieces on ONE rectangle, the newest hiding the older six: inside the trip's rows the block ends
  at the last stored value, outside them it is untouched.  Nothing the trip stores depends on what the block held
  before the trip, because its first store covers the rectangle whole.

  The generated trip is opened here, once; everything after cites `tripPieces_eq`.  The two trips' pieces together
  (`bodyPieces`) are what the loop's generated recursion over the trips amounts to, whatever the block held before the
  loop (`pb_eq`): the body's pieces are a closed list.
-/
import proofs.«412182_j6811818132414_3_alg».proof.Proof.Gen.KernelIdeal.Loops
import Idealize.ShloMosaic.Lib.Pipeline.FrameBody
import Idealize.ShloMosaic.Lib.WritesUnit

noncomputable section

open Idealize.ShloMosaic Idealize.ShloMosaic.Tactic Idealize.SL.Sem
open Cert.KernelIdeal Cert.KernelIdeal.Gen

namespace Cert.KernelIdeal.Taps

variable {F : FTy → Type} [FloatOps F]

/-- The rows trip `k` works on, as a rectangle of the block. -/
abbrev chunkRect (k : Fin k0_t1_loop.trips) : Rect S512x4096 :=
  Rect.unit (s := S512x4096) (k0_off1 k) S256x4096.size (k0_off1_inb k)

/-- The seven stored values of a trip, each built on the one before: `r` the chunk of the input block, `w₃, w₀, w₁, w₂, w₄,
    w₅, w₆` the table's rows in the order the trip uses them. -/
def stored1 (r : Vec F S256x4096 .f32) (w3 : Vec F S1x4096 .f32) : FVec F S256x4096 .f32 := k0_pay1 r w3
def stored2 (r : Vec F S256x4096 .f32) (w3 w0 : Vec F S1x4096 .f32) : FVec F S256x4096 .f32 := k0_pay2 r (stored1 r w3) w0
def stored3 (r : Vec F S256x4096 .f32) (w3 w0 w1 : Vec F S1x4096 .f32) : FVec F S256x4096 .f32 := k0_pay3 r (stored2 r w3 w0) w1
def stored4 (r : Vec F S256x4096 .f32) (w3 w0 w1 w2 : Vec F S1x4096 .f32) : FVec F S256x4096 .f32 :=
  k0_pay6 (k0_pay4 r) (k0_pay5 (stored3 r w3 w0 w1)) w2
def stored5 (r : Vec F S256x4096 .f32) (w3 w0 w1 w2 w4 : Vec F S1x4096 .f32) : FVec F S256x4096 .f32 :=
  k0_pay7 r (stored4 r w3 w0 w1 w2) w4
def stored6 (r : Vec F S256x4096 .f32) (w3 w0 w1 w2 w4 w5 : Vec F S1x4096 .f32) : FVec F S256x4096 .f32 :=
  k0_pay8 r (stored5 r w3 w0 w1 w2 w4) w5
def stored7 (r : Vec F S256x4096 .f32) (w3 w0 w1 w2 w4 w5 w6 : Vec F S1x4096 .f32) : FVec F S256x4096 .f32 :=
  k0_pay9 r (stored6 r w3 w0 w1 w2 w4 w5) w6

section Trip

variable (𝒱 : Variants) (c : Dev nD) (bd : Option 𝒱.V) (i : grid0.Coords)
  (arg1 : Memref sig .tc .vmem S512x4096 .f32) (harg1 : arg1.IsWhole) (arg2 : Memref sig .tc .vmem S8x4096 .f32) (harg2 : arg2.IsWhole)
  (arg3 : Memref sig .tc .vmem S512x4096 .f32) (harg3 : arg3.IsWhole)
  (X1 : BufTy.Contents (Elt F) arg1.view.ty) (X2 : BufTy.Contents (Elt F) arg2.view.ty)

/-- The chunk of the input block trip `k` loads. -/
def chunkOf (k : Fin k0_t1_loop.trips) : Vec F S256x4096 .f32 :=
  View.readAt (Elt F) arg1.view (chunkRect k).toLoadRect X1

/-- The table's rows as the trip loads them. -/
def row0 : Vec F S1x4096 .f32 := View.readAt (Elt F) arg2.view (Rect.unit (s := S8x4096) ![0, 0] S1x4096.size inb_S8x4096_S1x4096_0_0).toLoadRect X2
def row1 : Vec F S1x4096 .f32 := View.readAt (Elt F) arg2.view (Rect.unit (s := S8x4096) ![1, 0] S1x4096.size inb_S8x4096_S1x4096_1_0).toLoadRect X2
def row2 : Vec F S1x4096 .f32 := View.readAt (Elt F) arg2.view (Rect.unit (s := S8x4096) ![2, 0] S1x4096.size inb_S8x4096_S1x4096_2_0).toLoadRect X2
def row3 : Vec F S1x4096 .f32 := View.readAt (Elt F) arg2.view (Rect.unit (s := S8x4096) ![3, 0] S1x4096.size inb_S8x4096_S1x4096_3_0).toLoadRect X2
def row4 : Vec F S1x4096 .f32 := View.readAt (Elt F) arg2.view (Rect.unit (s := S8x4096) ![4, 0] S1x4096.size inb_S8x4096_S1x4096_4_0).toLoadRect X2
def row5 : Vec F S1x4096 .f32 := View.readAt (Elt F) arg2.view (Rect.unit (s := S8x4096) ![5, 0] S1x4096.size inb_S8x4096_S1x4096_5_0).toLoadRect X2
def row6 : Vec F S1x4096 .f32 := View.readAt (Elt F) arg2.view (Rect.unit (s := S8x4096) ![6, 0] S1x4096.size inb_S8x4096_S1x4096_6_0).toLoadRect X2

/-- The last value trip `k` stores. -/
def lastOf (k : Fin k0_t1_loop.trips) : FVec F S256x4096 .f32 :=
  stored7 (chunkOf arg1 X1 k) (row3 arg2 X2) (row0 arg2 X2) (row1 arg2 X2) (row2 arg2 X2) (row4 arg2 X2) (row5 arg2 X2) (row6 arg2 X2)

/-- The loop makes two trips. -/
abbrev trip0 : Fin k0_t1_loop.trips := ⟨0, by decide⟩
abbrev trip1 : Fin k0_t1_loop.trips := ⟨1, by decide⟩

/-- The seven stores of trip `k` through its one rectangle, newest first. -/
def tripList (k : Fin k0_t1_loop.trips) : List (View.Piece (Elt F) S512x4096 .f32) :=
  [ ⟨chunkRect k, stored7 (chunkOf arg1 X1 k) (row3 arg2 X2) (row0 arg2 X2) (row1 arg2 X2) (row2 arg2 X2) (row4 arg2 X2) (row5 arg2 X2) (row6 arg2 X2)⟩,
    ⟨chunkRect k, stored6 (chunkOf arg1 X1 k) (row3 arg2 X2) (row0 arg2 X2) (row1 arg2 X2) (row2 arg2 X2) (row4 arg2 X2) (row5 arg2 X2)⟩,
    ⟨chunkRect k, stored5 (chunkOf arg1 X1 k) (row3 arg2 X2) (row0 arg2 X2) (row1 arg2 X2) (row2 arg2 X2) (row4 arg2 X2)⟩,
    ⟨chunkRect k, stored4 (chunkOf arg1 X1 k) (row3 arg2 X2) (row0 arg2 X2) (row1 arg2 X2) (row2 arg2 X2)⟩,
    ⟨chunkRect k, stored3 (chunkOf arg1 X1 k) (row3 arg2 X2) (row0 arg2 X2) (row1 arg2 X2)⟩,
    ⟨chunkRect k, stored2 (chunkOf arg1 X1 k) (row3 arg2 X2) (row0 arg2 X2)⟩,
    ⟨chunkRect k, stored1 (chunkOf arg1 X1 k) (row3 arg2 X2)⟩ ]

/-- THE TRIP'S PIECES: seven stores through the trip's one rectangle, none depending on the contents `f` the trip finds.
    The generated trip's witness, opened: every value the trip reads back through its rectangle is the value it stored
    there last. -/
theorem tripPieces_eq (k : Fin k0_t1_loop.trips) (f : BufTy.Contents (Elt F) arg3.view.ty) :
    tripL_k0_t1 (F := F) 𝒱 c bd i arg1 harg1 arg2 harg2 arg3 harg3 X1 X2 k f = tripList arg1 arg2 X1 X2 k := by
  unfold tripL_k0_t1 trip_k0_t1 tripList
  dsimp only
  sl_unfold_words
  simp only [View.readCov_cons_toLoadRect]
  rfl

/-- Everything the body stores: the second trip's pieces over the first's. -/
def bodyPieces : List (View.Piece (Elt F) S512x4096 .f32) :=
  tripList arg1 arg2 X1 X2 trip1 ++ tripList arg1 arg2 X1 X2 trip0

/-- THE LOOP'S PIECES, whatever the block held when the loop was entered: since no trip's pieces depend on what the trip
    finds, the pieces of both trips are one list that does not mention the contents at entry. -/
theorem pb_eq (G : BufTy.Contents (Elt F) arg3.view.ty) :
    pb_k0_t1 (F := F) 𝒱 c bd i arg1 harg1 arg2 harg2 arg3 harg3 X1 X2 G (Scf.trips k0_t1_loop.lb k0_t1_loop.ub k0_t1_loop.st)
      = bodyPieces arg1 arg2 X1 X2 := by
  have e0 : pb_k0_t1 (F := F) 𝒱 c bd i arg1 harg1 arg2 harg2 arg3 harg3 X1 X2 G 0 = [] := rfl
  have e1 : pb_k0_t1 (F := F) 𝒱 c bd i arg1 harg1 arg2 harg2 arg3 harg3 X1 X2 G (trip0.val + 1) = tripList arg1 arg2 X1 X2 trip0 := by
    rw [pb_k0_t1_succ, tripPieces_eq]
    show _ ++ pb_k0_t1 (F := F) 𝒱 c bd i arg1 harg1 arg2 harg2 arg3 harg3 X1 X2 G 0 = _
    rw [e0, List.append_nil]
  have e2 : pb_k0_t1 (F := F) 𝒱 c bd i arg1 harg1 arg2 harg2 arg3 harg3 X1 X2 G (trip1.val + 1) = bodyPieces arg1 arg2 X1 X2 := by
    rw [pb_k0_t1_succ, tripPieces_eq]
    show _ ++ pb_k0_t1 (F := F) 𝒱 c bd i arg1 harg1 arg2 harg2 arg3 harg3 X1 X2 G (trip0.val + 1) = _
    rw [e1]
    rfl
  exact (congrArg (pb_k0_t1 (F := F) 𝒱 c bd i arg1 harg1 arg2 harg2 arg3 harg3 X1 X2 G)
    (by decide : Scf.trips k0_t1_loop.lb k0_t1_loop.ub k0_t1_loop.st = trip1.val + 1)).trans e2

variable (v : View sig .tc .vmem S512x4096 .f32) (g : v.ty.Contents (Elt F))

/-- Inside the trip's rows, whatever was written before: the trip's last stored value. -/
theorem read_tripList_of_mem (k : Fin k0_t1_loop.trips) (L : List (View.Piece (Elt F) S512x4096 .f32))
    (y : S512x4096.Idx) (x : S256x4096.Idx) (hx0 : (y (0 : Fin 2)).val = 256 * k.val + (x (0 : Fin 2)).val)
    (hx1 : (y (1 : Fin 2)).val = (x (1 : Fin 2)).val) :
    v.read (Elt F) (v.writes (Elt F) g (tripList arg1 arg2 X1 X2 k ++ L)) y = lastOf arg1 arg2 X1 X2 k x := by
  unfold tripList
  rw [List.cons_append]
  exact View.read_writes_cons_rows_of_mem v g (k0_off1_inb k) _ _ y x (k0_off1_eq k) hx0 hx1

/-- Outside the trip's rows the trip changes nothing. -/
theorem read_tripList_of_not_mem (k : Fin k0_t1_loop.trips) (L : List (View.Piece (Elt F) S512x4096 .f32))
    (y : S512x4096.Idx) (h : (y (0 : Fin 2)).val < 256 * k.val ∨ 256 * k.val + 256 ≤ (y (0 : Fin 2)).val) :
    v.read (Elt F) (v.writes (Elt F) g (tripList arg1 arg2 X1 X2 k ++ L)) y = v.read (Elt F) (v.writes (Elt F) g L) y := by
  unfold tripList
  simp only [List.cons_append, List.nil_append]
  rw [View.read_writes_cons_rows_of_not_mem v g (k0_off1_inb k) _ _ y (k0_off1_eq k) rfl h,
    View.read_writes_cons_rows_of_not_mem v g (k0_off1_inb k) _ _ y (k0_off1_eq k) rfl h,
    View.read_writes_cons_rows_of_not_mem v g (k0_off1_inb k) _ _ y (k0_off1_eq k) rfl h,
    View.read_writes_cons_rows_of_not_mem v g (k0_off1_inb k) _ _ y (k0_off1_eq k) rfl h,
    View.read_writes_cons_rows_of_not_mem v g (k0_off1_inb k) _ _ y (k0_off1_eq k) rfl h,
    View.read_writes_cons_rows_of_not_mem v g (k0_off1_inb k) _ _ y (k0_off1_eq k) rfl h,
    View.read_writes_cons_rows_of_not_mem v g (k0_off1_inb k) _ _ y (k0_off1_eq k) rfl h]

/-- THE BLOCK AFTER THE BODY, at an entry of the upper half (rows below 256): what the first trip stored last. -/
theorem read_body_upper (y : S512x4096.Idx) (x : S256x4096.Idx) (hx0 : (y (0 : Fin 2)).val = (x (0 : Fin 2)).val)
    (hx1 : (y (1 : Fin 2)).val = (x (1 : Fin 2)).val) :
    v.read (Elt F) (v.writes (Elt F) g (bodyPieces arg1 arg2 X1 X2)) y = lastOf arg1 arg2 X1 X2 trip0 x := by
  unfold bodyPieces
  have hx : (x (0 : Fin 2)).val < 256 := (x (0 : Fin 2)).isLt
  rw [read_tripList_of_not_mem arg1 arg2 X1 X2 v g trip1 _ y (Or.inl (by show (y (0 : Fin 2)).val < 256 * 1; omega))]
  rw [← List.append_nil (tripList arg1 arg2 X1 X2 trip0)]
  exact read_tripList_of_mem arg1 arg2 X1 X2 v g trip0 [] y x (by show (y (0 : Fin 2)).val = 256 * 0 + _; omega) hx1

/-- … and at an entry of the lower half (rows from 256): what the second trip stored last. -/
theorem read_body_lower (y : S512x4096.Idx) (x : S256x4096.Idx) (hx0 : (y (0 : Fin 2)).val = 256 + (x (0 : Fin 2)).val)
    (hx1 : (y (1 : Fin 2)).val = (x (1 : Fin 2)).val) :
    v.read (Elt F) (v.writes (Elt F) g (bodyPieces arg1 arg2 X1 X2)) y = lastOf arg1 arg2 X1 X2 trip1 x := by
  unfold bodyPieces
  exact read_tripList_of_mem arg1 arg2 X1 X2 v g trip1 _ y x (by show (y (0 : Fin 2)).val = 256 * 1 + _; omega) hx1

end Trip

end Cert.KernelIdeal.Taps

end
-- ==== Proof.Banded.lean ====
/-
  A banded linear map, two ways.  Over the extended reals, for a batch of rows `x : [n, 4096]` and a weight matrix
  `W : [4096, 4096]`:

  * the DENSE form masks `W` to the band `|o - i| ≤ 3` and contracts: `∑ i, x[b, i] * (W[o, i] * mask[o, i])`;
  * the TAP form keeps, per output column `o`, only the seven weights `W[o, o + k - 3]` (`k = 0 … 6`, zero where
    `o + k - 3` leaves `[0, 4096)`) in a table `[8, 4096]` whose last row is zero, and adds seven products of the table's
    rows with `x` rotated along its columns.  A rotation wraps around the end, but a wrapped entry only ever meets a
    table entry that is exactly zero.

  The two agree entry by entry with no finiteness assumption: a product with an exact zero is zero on every extended
  real, and addition of extended reals is commutative and associative, so the dense sum is regrouped by the diagonal
  `i + 3 = o + k` each of its band entries lies on.
-/
import Idealize.ShloMosaic.PureOps.Ideal
import Idealize.ShloMosaic.Lib.ValueIdx
import Mathlib.Algebra.BigOperators.Fin
import Mathlib.Tactic.Abel

noncomputable section

open scoped BigOperators
open Idealize.ShloMosaic Idealize.ShloMosaic.ValueIdx

namespace Cert.Banded

/-- Column `o` moved back by `s` places around the end of a row of 4096: the entry a rotation by `s` brings to `o`. -/
def back (s : Nat) (o : Fin 4096) : Fin 4096 := ⟨(o.val + 4096 - s % 4096) % 4096, Nat.mod_lt _ (by decide)⟩

/-- The band's indicator as an extended real: one where `o - 3 ≤ i ≤ o + 3`, else zero. -/
def band (o i : Fin 4096) : EReal := if o.val ≤ i.val + 3 ∧ i.val ≤ o.val + 3 then 1 else 0

/-- The table of taps: row `k < 7` holds `W[o, o + k - 3]` where that column exists and zero elsewhere; row 7 is zero. -/
def taps (W : (⟨2, ![4096, 4096]⟩ : Shape).Idx → EReal) : (⟨2, ![8, 4096]⟩ : Shape).Idx → EReal := fun j =>
  if h : (j 0).val < 7 ∧ 3 ≤ (j 1).val + (j 0).val ∧ (j 1).val + (j 0).val < 4096 + 3 then
    W (ix2 (j 1) ⟨(j 1).val + (j 0).val - 3, by omega⟩)
  else 0

/-- The tap form at an entry, in the order the products are accumulated: the centre tap first, then the three taps
    left of it (rotations by 3, 2, 1), then the three right of it (rotations by 4095, 4094, 4093). -/
def tapSum {n : Nat} (x : (⟨2, ![n, 4096]⟩ : Shape).Idx → EReal) (wb : (⟨2, ![8, 4096]⟩ : Shape).Idx → EReal) :
    (⟨2, ![n, 4096]⟩ : Shape).Idx → EReal := fun i =>
  x (ix2 (i 0) (i 1)) * wb (ix2 3 (i 1))
    + x (ix2 (i 0) (back 3 (i 1))) * wb (ix2 0 (i 1))
    + x (ix2 (i 0) (back 2 (i 1))) * wb (ix2 1 (i 1))
    + x (ix2 (i 0) (back 1 (i 1))) * wb (ix2 2 (i 1))
    + x (ix2 (i 0) (back 4095 (i 1))) * wb (ix2 4 (i 1))
    + x (ix2 (i 0) (back 4094 (i 1))) * wb (ix2 5 (i 1))
    + x (ix2 (i 0) (back 4093 (i 1))) * wb (ix2 6 (i 1))

/-- The dense form at an entry. -/
def dense {n : Nat} (x : (⟨2, ![n, 4096]⟩ : Shape).Idx → EReal) (W : (⟨2, ![4096, 4096]⟩ : Shape).Idx → EReal) :
    (⟨2, ![n, 4096]⟩ : Shape).Idx → EReal := fun i =>
  ∑ k : Fin 4096, x (ix2 (i 0) k) * (W (ix2 (i 1) k) * band (i 1) k)

/-- The rotation that serves tap `k`: by `3 - k` places for the taps left of the centre, by `4096 + 3 - k` for those right
    of it, none at the centre. -/
def shiftOf (k : Fin 7) : Nat := if k.val ≤ 3 then 3 - k.val else 4096 + 3 - k.val

/-- Where tap `k`'s column exists, the rotation lands on it. -/
theorem back_shiftOf (k : Fin 7) (o : Fin 4096) (h₁ : 3 ≤ o.val + k.val) (h₂ : o.val + k.val < 4096 + 3) :
    back (shiftOf k) o = ⟨o.val + k.val - 3, by omega⟩ := by
  refine Fin.ext ?_
  show (o.val + 4096 - shiftOf k % 4096) % 4096 = o.val + k.val - 3
  have hk := k.isLt
  have ho := o.isLt
  unfold shiftOf
  split
  · rename_i hle
    rw [Nat.mod_eq_of_lt (by omega : 3 - k.val < 4096)]
    rw [show o.val + 4096 - (3 - k.val) = (o.val + k.val - 3) + 4096 by omega, Nat.add_mod_right]
    exact Nat.mod_eq_of_lt (by omega)
  · rename_i hgt
    rw [Nat.mod_eq_of_lt (by omega : 4096 + 3 - k.val < 4096)]
    rw [show o.val + 4096 - (4096 + 3 - k.val) = o.val + k.val - 3 by omega]
    exact Nat.mod_eq_of_lt (by omega)

section Law
variable {n : Nat} (x : (⟨2, ![n, 4096]⟩ : Shape).Idx → EReal) (W : (⟨2, ![4096, 4096]⟩ : Shape).Idx → EReal)

/-- One term of the dense sum. -/
def denseTerm (b : Fin n) (o i : Fin 4096) : EReal := x (ix2 b i) * (W (ix2 o i) * band o i)

/-- Off the band a dense term is zero: its weight is multiplied by an exact zero. -/
theorem denseTerm_off (b : Fin n) (o i : Fin 4096) (h : ¬(o.val ≤ i.val + 3 ∧ i.val ≤ o.val + 3)) :
    denseTerm x W b o i = 0 := by
  unfold denseTerm band
  rw [if_neg h, mul_zero, mul_zero]

/-- On the band a dense term is the plain product. -/
theorem denseTerm_on (b : Fin n) (o i : Fin 4096) (h : o.val ≤ i.val + 3 ∧ i.val ≤ o.val + 3) :
    denseTerm x W b o i = x (ix2 b i) * W (ix2 o i) := by
  unfold denseTerm band
  rw [if_pos h, mul_one]

/-- One product of the tap form: `x` rotated for tap `k`, times the table's row `k`. -/
def tapTerm (b : Fin n) (o : Fin 4096) (k : Fin 7) : EReal :=
  x (ix2 b (back (shiftOf k) o)) * taps W (ix2 ⟨k.val, by omega⟩ o)

/-- A tap's product is the part of the dense sum on its diagonal `i + 3 = o + k`: one dense term where the diagonal
    meets the row, nothing where it does not (the table's entry is zero there). -/
theorem tapTerm_eq_diag (b : Fin n) (o : Fin 4096) (k : Fin 7) :
    tapTerm x W b o k = ∑ i : Fin 4096, if i.val + 3 = o.val + k.val then denseTerm x W b o i else 0 := by
  have hk := k.isLt
  have ho := o.isLt
  by_cases h : 3 ≤ o.val + k.val ∧ o.val + k.val < 4096 + 3
  · -- the diagonal meets the row at column o + k - 3
    have hcond : (k.val < 7 ∧ 3 ≤ o.val + k.val ∧ o.val + k.val < 4096 + 3) := ⟨hk, h.1, h.2⟩
    rw [Finset.sum_eq_single (⟨o.val + k.val - 3, by omega⟩ : Fin 4096)]
    · rw [if_pos (by show o.val + k.val - 3 + 3 = o.val + k.val; omega)]
      rw [denseTerm_on x W b o _ (by show o.val ≤ o.val + k.val - 3 + 3 ∧ o.val + k.val - 3 ≤ o.val + 3; omega)]
      unfold tapTerm taps
      rw [back_shiftOf k o h.1 h.2]
      rw [dif_pos (by exact hcond)]
    · intro i _ hne
      rw [if_neg]
      intro hi
      exact hne (Fin.ext (by show i.val = o.val + k.val - 3; omega))
    · intro hnot; exact absurd (Finset.mem_univ _) hnot
  · -- the diagonal misses the row: the table's entry is zero
    have hz : taps W (ix2 ⟨k.val, by omega⟩ o) = 0 := by
      unfold taps
      rw [dif_neg]
      intro hc
      exact h ⟨hc.2.1, hc.2.2⟩
    unfold tapTerm
    rw [hz, mul_zero]
    symm
    refine Finset.sum_eq_zero fun i _ => ?_
    rw [if_neg]
    intro hi
    have := i.isLt
    exact h (by omega)

/-- Summed over the seven diagonals, each dense term is counted once if it lies on the band and not at all otherwise;
    off the band it is zero anyway. -/
theorem diag_cover (b : Fin n) (o i : Fin 4096) :
    (∑ k : Fin 7, if i.val + 3 = o.val + k.val then denseTerm x W b o i else 0) = denseTerm x W b o i := by
  by_cases h : o.val ≤ i.val + 3 ∧ i.val ≤ o.val + 3
  · rw [Finset.sum_eq_single (⟨i.val + 3 - o.val, by omega⟩ : Fin 7)]
    · rw [if_pos (by show i.val + 3 = o.val + (i.val + 3 - o.val); omega)]
    · intro k _ hne
      rw [if_neg]
      intro hk
      exact hne (Fin.ext (by show k.val = i.val + 3 - o.val; omega))
    · intro hnot; exact absurd (Finset.mem_univ _) hnot
  · rw [denseTerm_off x W b o i h]
    exact Finset.sum_eq_zero fun k _ => by split <;> rfl

/-- The seven taps together are the dense sum. -/
theorem sum_tapTerm (b : Fin n) (o : Fin 4096) :
    (∑ k : Fin 7, tapTerm x W b o k) = ∑ i : Fin 4096, denseTerm x W b o i := by
  simp only [tapTerm_eq_diag]
  rw [Finset.sum_comm]
  exact Finset.sum_congr rfl fun i _ => diag_cover x W b o i

/-- THE LAW: the tap form over the table of taps is the dense form, entry by entry. -/
theorem tapSum_taps_eq_dense : tapSum x (taps W) = dense x W := by
  funext i
  have h := sum_tapTerm x W (i 0) (i 1)
  rw [Fin.sum_univ_seven] at h
  unfold tapSum dense
  show _ = ∑ k : Fin 4096, denseTerm x W (i 0) (i 1) k
  rw [← h]
  have e0 : tapTerm x W (i 0) (i 1) 0 = x (ix2 (i 0) (back 3 (i 1))) * taps W (ix2 0 (i 1)) := rfl
  have e1 : tapTerm x W (i 0) (i 1) 1 = x (ix2 (i 0) (back 2 (i 1))) * taps W (ix2 1 (i 1)) := rfl
  have e2 : tapTerm x W (i 0) (i 1) 2 = x (ix2 (i 0) (back 1 (i 1))) * taps W (ix2 2 (i 1)) := rfl
  have e3 : tapTerm x W (i 0) (i 1) 3 = x (ix2 (i 0) (back 0 (i 1))) * taps W (ix2 3 (i 1)) := rfl
  have e4 : tapTerm x W (i 0) (i 1) 4 = x (ix2 (i 0) (back 4095 (i 1))) * taps W (ix2 4 (i 1)) := rfl
  have e5 : tapTerm x W (i 0) (i 1) 5 = x (ix2 (i 0) (back 4094 (i 1))) * taps W (ix2 5 (i 1)) := rfl
  have e6 : tapTerm x W (i 0) (i 1) 6 = x (ix2 (i 0) (back 4093 (i 1))) * taps W (ix2 6 (i 1)) := rfl
  have hb0 : back 0 (i 1) = i 1 := Fin.ext (by
    show ((i 1).val + 4096 - 0 % 4096) % 4096 = (i 1).val
    have := (i 1).isLt
    rw [Nat.zero_mod, Nat.sub_zero, Nat.add_mod_right]; exact Nat.mod_eq_of_lt this)
  rw [e0, e1, e2, e3, e4, e5, e6, hb0]
  abel

end Law

end Cert.Banded

end
-- ==== Proof.Payloads.lean ====
/-
  The kernel body's stored values read at an entry, over the extended reals.  One trip of the body works on a chunk of
  256 rows `r : [256, 4096]` of the input block and on rows of the tap table `w : [1, 4096]`.  It stores the centre
  product `r * w₃` and then six times reads the stored chunk back and stores it again with one more product added:
  `acc + rot r * w`, where `rot r` is `r` rotated along its columns, so that entry `(p, q)` of the rotation by `n` is
  `r (p, q - n)` around the end.  A rotation moves nothing between rows, a row of the table is the same for every row of
  the chunk, so each stored value at `(p, q)` depends on row `p` of the chunk and column `q` of the table only, and the
  last stored value is the seven-term sum in the order the products were added.
-/
import proofs.«412182_j6811818132414_3_alg».proof.Proof.Gen.KernelIdeal.Skeleton
import proofs.«412182_j6811818132414_3_alg».proof.Proof.Banded
import Idealize.ShloMosaic.Lib.ValueIdx
import Idealize.ShloMosaic.Lib.Pipeline.Value
import Idealize.ShloMosaic.Lib.ValueLayout
import Idealize.ShloMosaic.Lib.KernelVsHost

noncomputable section

open Idealize.ShloMosaic Idealize.ShloMosaic.ValueIdx
open Cert.KernelIdeal Cert.KernelIdeal.Gen Cert.Banded

namespace Cert.KernelIdeal.Taps

/-- A chunk rotated by the word `s` along its columns, at `(p, q)`: the chunk at `(p, q)` moved back `s` columns around
    the end. -/
theorem rot_apply (s : BitVec 32) (n : Nat) (hs : s.toNat = n) (r : FVec Ideal S256x4096 .f32) (p : Fin 256) (q : Fin 4096) :
    dynamicRotate 1 s none r rotates_S256x4096_d1 (ix2 p q) = r (ix2 p (back n q)) := by
  refine dynamicRotate_apply (1 : Fin 2) s r rotates_S256x4096_d1 (ix2 p q) (ix2 p (back n q)) fun b => ?_
  match b with
  | ⟨0, _⟩ => rfl
  | ⟨1, _⟩ =>
    show (back n q).val = ((q.val + 4096 - s.toNat % 4096) % 4096)
    rw [hs]; rfl

/-- A row of the table spread over the chunk's rows, at `(p, q)`: the row's column `q`. -/
theorem row_apply (w : Vec Ideal S1x4096 .f32) (p : Fin 256) (q : Fin 4096) :
    broadcastTo S256x4096 (shapeCast S1x4096 w shapeCasts_S1x4096_S1x4096) broadcasts_S1x4096_S256x4096 (ix2 p q)
      = w (ix2 (0 : Fin 1) q) := by
  rw [shapeCast_self]
  exact broadcastTo_1b_ab_apply w broadcasts_S1x4096_S256x4096 p q

/-- The first stored value: the centre product. -/
theorem pay1_apply (r : Vec Ideal S256x4096 .f32) (w : Vec Ideal S1x4096 .f32) (p : Fin 256) (q : Fin 4096) :
    k0_pay1 (F := Ideal) r w (ix2 p q) = r (ix2 p q) * w (ix2 (0 : Fin 1) q) := by
  unfold k0_pay1
  show r (ix2 p q) * _ = _
  rw [row_apply]

/-- The stored values that add the product of a rotated chunk to what was read back. -/
theorem pay2_apply (r acc : Vec Ideal S256x4096 .f32) (w : Vec Ideal S1x4096 .f32) (p : Fin 256) (q : Fin 4096) :
    k0_pay2 (F := Ideal) r acc w (ix2 p q) = acc (ix2 p q) + r (ix2 p (back 3 q)) * w (ix2 (0 : Fin 1) q) := by
  unfold k0_pay2
  show shapeCast S256x4096 acc shapeCasts_S256x4096_S256x4096 (ix2 p q) + dynamicRotate 1 3#32 none r rotates_S256x4096_d1 (ix2 p q) * _ = _
  rw [shapeCast_self, rot_apply 3#32 3 rfl, row_apply]

theorem pay3_apply (r acc : Vec Ideal S256x4096 .f32) (w : Vec Ideal S1x4096 .f32) (p : Fin 256) (q : Fin 4096) :
    k0_pay3 (F := Ideal) r acc w (ix2 p q) = acc (ix2 p q) + r (ix2 p (back 2 q)) * w (ix2 (0 : Fin 1) q) := by
  unfold k0_pay3
  show shapeCast S256x4096 acc shapeCasts_S256x4096_S256x4096 (ix2 p q) + dynamicRotate 1 2#32 none r rotates_S256x4096_d1 (ix2 p q) * _ = _
  rw [shapeCast_self, rot_apply 2#32 2 rfl, row_apply]

/-- The rotation by one column, kept across the cut of the body's text. -/
theorem pay4_apply (r : Vec Ideal S256x4096 .f32) (p : Fin 256) (q : Fin 4096) :
    k0_pay4 (F := Ideal) r (ix2 p q) = r (ix2 p (back 1 q)) := by
  unfold k0_pay4
  exact rot_apply 1#32 1 rfl r p q

/-- What was read back, kept across the cut of the body's text. -/
theorem pay5_eq (acc : Vec Ideal S256x4096 .f32) : k0_pay5 (F := Ideal) acc = acc := by
  unfold k0_pay5
  exact shapeCast_self acc shapeCasts_S256x4096_S256x4096

theorem pay6_apply (rot acc : FVec Ideal S256x4096 .f32) (w : Vec Ideal S1x4096 .f32) (p : Fin 256) (q : Fin 4096) :
    k0_pay6 (F := Ideal) rot acc w (ix2 p q) = acc (ix2 p q) + rot (ix2 p q) * w (ix2 (0 : Fin 1) q) := by
  unfold k0_pay6
  show acc (ix2 p q) + rot (ix2 p q) * _ = _
  rw [row_apply]

theorem pay7_apply (r acc : Vec Ideal S256x4096 .f32) (w : Vec Ideal S1x4096 .f32) (p : Fin 256) (q : Fin 4096) :
    k0_pay7 (F := Ideal) r acc w (ix2 p q) = acc (ix2 p q) + r (ix2 p (back 4095 q)) * w (ix2 (0 : Fin 1) q) := by
  unfold k0_pay7
  show shapeCast S256x4096 acc shapeCasts_S256x4096_S256x4096 (ix2 p q) + dynamicRotate 1 4095#32 none r rotates_S256x4096_d1 (ix2 p q) * _ = _
  rw [shapeCast_self, rot_apply 4095#32 4095 rfl, row_apply]

theorem pay8_apply (r acc : Vec Ideal S256x4096 .f32) (w : Vec Ideal S1x4096 .f32) (p : Fin 256) (q : Fin 4096) :
    k0_pay8 (F := Ideal) r acc w (ix2 p q) = acc (ix2 p q) + r (ix2 p (back 4094 q)) * w (ix2 (0 : Fin 1) q) := by
  unfold k0_pay8
  show shapeCast S256x4096 acc shapeCasts_S256x4096_S256x4096 (ix2 p q) + dynamicRotate 1 4094#32 none r rotates_S256x4096_d1 (ix2 p q) * _ = _
  rw [shapeCast_self, rot_apply 4094#32 4094 rfl, row_apply]

theorem pay9_apply (r acc : Vec Ideal S256x4096 .f32) (w : Vec Ideal S1x4096 .f32) (p : Fin 256) (q : Fin 4096) :
    k0_pay9 (F := Ideal) r acc w (ix2 p q) = acc (ix2 p q) + r (ix2 p (back 4093 q)) * w (ix2 (0 : Fin 1) q) := by
  unfold k0_pay9
  show shapeCast S256x4096 acc shapeCasts_S256x4096_S256x4096 (ix2 p q) + dynamicRotate 1 4093#32 none r rotates_S256x4096_d1 (ix2 p q) * _ = _
  rw [shapeCast_self, rot_apply 4093#32 4093 rfl, row_apply]

/-- The last value one trip stores, as a function of the chunk and of the table's seven rows: each stored value taken
    as the value read back by the next store. -/
def lastStored (r : Vec Ideal S256x4096 .f32) (w0 w1 w2 w3 w4 w5 w6 : Vec Ideal S1x4096 .f32) : FVec Ideal S256x4096 .f32 :=
  k0_pay9 (F := Ideal) r (k0_pay8 (F := Ideal) r (k0_pay7 (F := Ideal) r (k0_pay6 (F := Ideal) (k0_pay4 (F := Ideal) r)
    (k0_pay5 (F := Ideal) (k0_pay3 (F := Ideal) r (k0_pay2 (F := Ideal) r (k0_pay1 (F := Ideal) r w3) w0) w1)) w2) w4) w5) w6

/-- The last stored value at `(p, q)`: the seven products in the order they were added. -/
theorem lastStored_apply (r : Vec Ideal S256x4096 .f32) (w0 w1 w2 w3 w4 w5 w6 : Vec Ideal S1x4096 .f32) (p : Fin 256) (q : Fin 4096) :
    lastStored r w0 w1 w2 w3 w4 w5 w6 (ix2 p q)
      = r (ix2 p q) * w3 (ix2 (0 : Fin 1) q)
        + r (ix2 p (back 3 q)) * w0 (ix2 (0 : Fin 1) q)
        + r (ix2 p (back 2 q)) * w1 (ix2 (0 : Fin 1) q)
        + r (ix2 p (back 1 q)) * w2 (ix2 (0 : Fin 1) q)
        + r (ix2 p (back 4095 q)) * w4 (ix2 (0 : Fin 1) q)
        + r (ix2 p (back 4094 q)) * w5 (ix2 (0 : Fin 1) q)
        + r (ix2 p (back 4093 q)) * w6 (ix2 (0 : Fin 1) q) := by
  unfold lastStored
  rw [pay9_apply, pay8_apply, pay7_apply, pay6_apply, pay4_apply, pay5_eq, pay3_apply, pay2_apply, pay1_apply]

end Cert.KernelIdeal.Taps

end
-- ==== Proof.KernelBlock.lean ====
/-
  The output block after the kernel body, over the extended reals: the tap form of the point's two input blocks.

  The body's stores are the two trips' pieces, a closed list (`Taps.bodyPieces`).  An entry in rows `[256 k, 256 k + 256)`
  of the block is under trip `k`'s last store and nothing newer, so it holds that store's value at the entry's place in
  the chunk.  The chunk a trip loads is rows `[256 k, 256 k + 256)` of the input block, the table rows it loads are
  rows 0 … 6 of the table block, each read through a whole staging buffer; with the seven stored values read at an
  entry, the block's entry `(256 k + p, q)` is the seven-term sum over row `256 k + p` of the input block and column `q`
  of the table block.
-/
import proofs.«412182_j6811818132414_3_alg».proof.Proof.KIFrame
import proofs.«412182_j6811818132414_3_alg».proof.Proof.Payloads
import proofs.«412182_j6811818132414_3_alg».proof.Proof.TripPieces
import Idealize.ShloMosaic.Lib.WholeRead

noncomputable section

open Idealize.ShloMosaic Idealize.ShloMosaic.TcCoe Idealize.ShloMosaic.ValueIdx Idealize.SL.Sem
open Cert.KernelIdeal Cert.KernelIdeal.Gen Cert.KernelIdeal.GenP Cert.Banded

namespace Cert.KernelIdeal.Taps

section Block

variable (arg1 : Memref sig .tc .vmem S512x4096 .f32) (harg1 : arg1.IsWhole) (arg2 : Memref sig .tc .vmem S8x4096 .f32) (harg2 : arg2.IsWhole)
  (x0 : Vec Ideal S512x4096 .f32) (x1 : Vec Ideal S8x4096 .f32)

/-- The chunk trip `k` loads, at `(p, q)`: the input block at row `256 k + p`. -/
theorem chunk_apply (k : Fin k0_t1_loop.trips) (p : Fin 256) (q : Fin 4096) (hr : 256 * k.val + p.val < 512) :
    chunkOf (F := Ideal) arg1 (harg1.unread x0) k (ix2 p q) = x0 (ix2 ⟨256 * k.val + p.val, hr⟩ q) := by
  unfold chunkOf
  rw [harg1.readAt_unread x0]
  refine congrArg x0 (funext fun a => Fin.ext ?_)
  match a with
  | ⟨0, _⟩ =>
    show k0_off1 k 0 + 1 * p.val = 256 * k.val + p.val
    rw [k0_off1_eq k]
    show 256 * k.val + 1 * p.val = _
    omega
  | ⟨1, _⟩ =>
    show k0_off1 k 1 + 1 * q.val = q.val
    rw [k0_off1_eq k]
    show 0 + 1 * q.val = _
    omega

/-- The table rows a trip loads, at column `q`: the table block's rows. -/
theorem row0_apply (q : Fin 4096) : row0 (F := Ideal) arg2 (harg2.unread x1) (ix2 (0 : Fin 1) q) = x1 (ix2 (0 : Fin 8) q) := by
  unfold row0
  rw [harg2.readAt_unread x1]
  refine congrArg x1 (funext fun a => Fin.ext ?_)
  match a with
  | ⟨0, _⟩ => rfl
  | ⟨1, _⟩ => show 0 + 1 * q.val = q.val; omega

theorem row1_apply (q : Fin 4096) : row1 (F := Ideal) arg2 (harg2.unread x1) (ix2 (0 : Fin 1) q) = x1 (ix2 (1 : Fin 8) q) := by
  unfold row1
  rw [harg2.readAt_unread x1]
  refine congrArg x1 (funext fun a => Fin.ext ?_)
  match a with
  | ⟨0, _⟩ => rfl
  | ⟨1, _⟩ => show 0 + 1 * q.val = q.val; omega

theorem row2_apply (q : Fin 4096) : row2 (F := Ideal) arg2 (harg2.unread x1) (ix2 (0 : Fin 1) q) = x1 (ix2 (2 : Fin 8) q) := by
  unfold row2
  rw [harg2.readAt_unread x1]
  refine congrArg x1 (funext fun a => Fin.ext ?_)
  match a with
  | ⟨0, _⟩ => rfl
  | ⟨1, _⟩ => show 0 + 1 * q.val = q.val; omega

theorem row3_apply (q : Fin 4096) : row3 (F := Ideal) arg2 (harg2.unread x1) (ix2 (0 : Fin 1) q) = x1 (ix2 (3 : Fin 8) q) := by
  unfold row3
  rw [harg2.readAt_unread x1]
  refine congrArg x1 (funext fun a => Fin.ext ?_)
  match a with
  | ⟨0, _⟩ => rfl
  | ⟨1, _⟩ => show 0 + 1 * q.val = q.val; omega

theorem row4_apply (q : Fin 4096) : row4 (F := Ideal) arg2 (harg2.unread x1) (ix2 (0 : Fin 1) q) = x1 (ix2 (4 : Fin 8) q) := by
  unfold row4
  rw [harg2.readAt_unread x1]
  refine congrArg x1 (funext fun a => Fin.ext ?_)
  match a with
  | ⟨0, _⟩ => rfl
  | ⟨1, _⟩ => show 0 + 1 * q.val = q.val; omega

theorem row5_apply (q : Fin 4096) : row5 (F := Ideal) arg2 (harg2.unread x1) (ix2 (0 : Fin 1) q) = x1 (ix2 (5 : Fin 8) q) := by
  unfold row5
  rw [harg2.readAt_unread x1]
  refine congrArg x1 (funext fun a => Fin.ext ?_)
  match a with
  | ⟨0, _⟩ => rfl
  | ⟨1, _⟩ => show 0 + 1 * q.val = q.val; omega

theorem row6_apply (q : Fin 4096) : row6 (F := Ideal) arg2 (harg2.unread x1) (ix2 (0 : Fin 1) q) = x1 (ix2 (6 : Fin 8) q) := by
  unfold row6
  rw [harg2.readAt_unread x1]
  refine congrArg x1 (funext fun a => Fin.ext ?_)
  match a with
  | ⟨0, _⟩ => rfl
  | ⟨1, _⟩ => show 0 + 1 * q.val = q.val; omega

/-- A trip's last stored value at `(p, q)` is the tap form of the two blocks at row `256 k + p`, column `q`. -/
theorem lastOf_apply (k : Fin k0_t1_loop.trips) (p : Fin 256) (q : Fin 4096) (hr : 256 * k.val + p.val < 512) :
    lastOf (F := Ideal) arg1 arg2 (harg1.unread x0) (harg2.unread x1) k (ix2 p q)
      = tapSum x0 x1 (ix2 ⟨256 * k.val + p.val, hr⟩ q) := by
  show lastStored (chunkOf (F := Ideal) arg1 (harg1.unread x0) k) (row0 (F := Ideal) arg2 (harg2.unread x1)) (row1 (F := Ideal) arg2 (harg2.unread x1))
    (row2 (F := Ideal) arg2 (harg2.unread x1)) (row3 (F := Ideal) arg2 (harg2.unread x1)) (row4 (F := Ideal) arg2 (harg2.unread x1))
    (row5 (F := Ideal) arg2 (harg2.unread x1)) (row6 (F := Ideal) arg2 (harg2.unread x1)) (ix2 p q) = _
  rw [lastStored_apply]
  simp only [chunk_apply arg1 harg1 x0 k p _ hr, row0_apply arg2 harg2 x1, row1_apply arg2 harg2 x1, row2_apply arg2 harg2 x1,
    row3_apply arg2 harg2 x1, row4_apply arg2 harg2 x1, row5_apply arg2 harg2 x1, row6_apply arg2 harg2 x1]
  rfl

/-- THE BLOCK AFTER THE BODY is the tap form of the point's input block and table block. -/
theorem out_eq (c : Dev nD) (i : grid0.Coords) (arg3 : Memref sig .tc .vmem S512x4096 .f32) (harg3 : arg3.IsWhole) :
    out0_A_2 (F := Ideal) c i arg1 harg1 arg2 harg2 arg3 harg3 x0 x1 = tapSum x0 x1 := by
  funext y
  show VO0_2.read (Elt Ideal) (VO0_2.writes (Elt Ideal) VO0_2.junk (bodyPieces (F := Ideal) arg1 arg2 (harg1.unread x0) (harg2.unread x1))) y = _
  have hy0 : (y (0 : Fin 2)).val < 512 := (y (0 : Fin 2)).isLt
  have hy1 : (y (1 : Fin 2)).val < 4096 := (y (1 : Fin 2)).isLt
  by_cases h : (y (0 : Fin 2)).val < 256
  · rw [read_body_upper arg1 arg2 (harg1.unread x0) (harg2.unread x1) VO0_2 VO0_2.junk y
      (ix2 (⟨(y (0 : Fin 2)).val, h⟩ : Fin 256) (⟨(y (1 : Fin 2)).val, hy1⟩ : Fin 4096)) rfl rfl]
    rw [lastOf_apply arg1 harg1 arg2 harg2 x0 x1 trip0 _ _ (by show 256 * 0 + (y (0 : Fin 2)).val < 512; omega)]
    refine congrArg (tapSum x0 x1) (funext fun a => Fin.ext ?_)
    match a with
    | ⟨0, _⟩ => show 256 * 0 + (y (0 : Fin 2)).val = (y (0 : Fin 2)).val; omega
    | ⟨1, _⟩ => rfl
  · rw [read_body_lower arg1 arg2 (harg1.unread x0) (harg2.unread x1) VO0_2 VO0_2.junk y
      (ix2 (⟨(y (0 : Fin 2)).val - 256, by omega⟩ : Fin 256) (⟨(y (1 : Fin 2)).val, hy1⟩ : Fin 4096))
      (by show (y (0 : Fin 2)).val = 256 + ((y (0 : Fin 2)).val - 256); omega) rfl]
    rw [lastOf_apply arg1 harg1 arg2 harg2 x0 x1 trip1 _ _ (by show 256 * 1 + ((y (0 : Fin 2)).val - 256) < 512; omega)]
    refine congrArg (tapSum x0 x1) (funext fun a => Fin.ext ?_)
    match a with
    | ⟨0, _⟩ => show 256 * 1 + ((y (0 : Fin 2)).val - 256) = (y (0 : Fin 2)).val; omega
    | ⟨1, _⟩ => rfl

end Block

end Cert.KernelIdeal.Taps

end
-- ==== Proof.TapWords.lean ====
import Idealize.ShloMosaic.PureOps
import Idealize.ShloMosaic.Lib.StableHlo.Predicate

/-!
# The tap's column word

For an output column o < 4096 and a tap k < 7 the column index o + (k - 3) is formed in 32-bit arithmetic. The sum
wraps below zero exactly when o + k < 3, and the word read as a signed integer is o + k - 3 in every case (between -3
and 4098). Everything else follows from that one reading: the signed range test holds exactly when 3 ≤ o + k < 4099,
the signed clip into [0, 4095] is never negative and never above 4095, and where the column exists the clip is the
column itself.
-/

open Idealize.ShloMosaic

namespace Cert.TapWords

/-- The column word of tap `k` at output column `o`: `o + (k - 3)` in 32-bit arithmetic (it wraps below zero). -/
def idxWord (o k : Nat) : BitVec 32 := IntOp.addi (BitVec.ofNat 32 o) (IntOp.addi 4294967293#32 (BitVec.ofNat 32 k))

/-- That word clipped, as signed, into `[0, 4095]`. -/
def clipWord (o k : Nat) : BitVec 32 := IntOp.minsi 4095#32 (IntOp.maxsi 0#32 (idxWord o k))

/-- The range test of the column word: `0 ≤ o + k - 3 < 4096` as signed compares. -/
def validBit (o k : Nat) : BitVec 1 := IntOp.andi (IntOp.cmpi .sge (idxWord o k) 0#32) (IntOp.cmpi .slt (idxWord o k) 4096#32)

/-! ## The signed readings -/

theorem toInt_zero : (0#32 : BitVec 32).toInt = 0 := by decide
theorem toInt_4095 : (4095#32 : BitVec 32).toInt = 4095 := by decide
theorem toInt_4096 : (4096#32 : BitVec 32).toInt = 4096 := by decide

/-- The column word read as a signed integer is `o + k - 3`: the 32-bit sum wraps exactly when that is negative, and
    the wrapped word is then the two's-complement form of it. -/
theorem idx_toInt {o k : Nat} (ho : o < 4096) (hk : k < 7) : (idxWord o k).toInt = (o : Int) + k - 3 := by
  have hn : (idxWord o k).toNat = (o % 4294967296 + (4294967293 + k % 4294967296) % 4294967296) % 4294967296 := by
    simp only [idxWord, IntOp.addi, BitVec.toNat_add, BitVec.toNat_ofNat]
  rw [BitVec.toInt_eq_toNat_cond, hn]
  split <;> omega

/-- The signed maximum of two words reads as the maximum of their signed readings. -/
theorem maxsi_toInt (x y : BitVec 32) : (IntOp.maxsi x y).toInt = max x.toInt y.toInt := by
  unfold IntOp.maxsi
  split <;> rename_i hc <;> simp only [BitVec.slt, decide_eq_true_eq] at hc <;> omega

/-- The signed minimum of two words reads as the minimum of their signed readings. -/
theorem minsi_toInt (x y : BitVec 32) : (IntOp.minsi x y).toInt = min x.toInt y.toInt := by
  unfold IntOp.minsi
  split <;> rename_i hc <;> simp only [BitVec.slt, decide_eq_true_eq] at hc <;> omega

/-- The clipped word read as a signed integer: `o + k - 3` clipped into `[0, 4095]`. -/
theorem clip_toInt {o k : Nat} (ho : o < 4096) (hk : k < 7) :
    (clipWord o k).toInt = min 4095 (max 0 ((o : Int) + k - 3)) := by
  unfold clipWord
  rw [minsi_toInt, maxsi_toInt, idx_toInt ho hk, toInt_zero, toInt_4095]

/-! ## The range test -/

theorem valid_one {o k : Nat} (ho : o < 4096) (hk : k < 7) (h : 3 ≤ o + k ∧ o + k < 4096 + 3) : validBit o k = 1#1 := by
  have h1 : (0#32 : BitVec 32).sle (idxWord o k) = true := by
    simp only [BitVec.sle, idx_toInt ho hk, toInt_zero, decide_eq_true_eq]; omega
  have h2 : (idxWord o k).slt 4096#32 = true := by
    simp only [BitVec.slt, idx_toInt ho hk, toInt_4096, decide_eq_true_eq]; omega
  simp only [validBit, IntOp.cmpi, IntOp.andi, h1, h2]
  decide

theorem valid_zero {o k : Nat} (ho : o < 4096) (hk : k < 7) (h : ¬(3 ≤ o + k ∧ o + k < 4096 + 3)) : validBit o k = 0#1 := by
  by_cases h3 : 3 ≤ o + k
  · have h2 : (idxWord o k).slt 4096#32 = false := by
      simp only [BitVec.slt, idx_toInt ho hk, toInt_4096, decide_eq_false_iff_not]; omega
    simp only [validBit, IntOp.cmpi, IntOp.andi, h2]
    cases (0#32 : BitVec 32).sle (idxWord o k) <;> decide
  · have h1 : (0#32 : BitVec 32).sle (idxWord o k) = false := by
      simp only [BitVec.sle, idx_toInt ho hk, toInt_zero, decide_eq_false_iff_not]; omega
    simp only [validBit, IntOp.cmpi, IntOp.andi, h1]
    cases (idxWord o k).slt 4096#32 <;> decide

/-! ## The clipped word -/

/-- The clipped word is never negative, so the wrap-around of a negative index leaves it alone. -/
theorem pick_eq_clip {o k : Nat} (ho : o < 4096) (hk : k < 7) :
    Scalar.select (IntOp.cmpi .slt (clipWord o k) 0#32) (IntOp.addi (clipWord o k) 4096#32) (clipWord o k) = clipWord o k := by
  have h1 : (clipWord o k).slt 0#32 = false := by
    simp only [BitVec.slt, clip_toInt ho hk, toInt_zero, decide_eq_false_iff_not]; omega
  simp only [Scalar.select, IntOp.cmpi, h1]
  rfl

/-- The clipped word passes the gather's own range test. -/
theorem inb_one {o k : Nat} (ho : o < 4096) (hk : k < 7) :
    IntOp.andi (IntOp.cmpi .sge (clipWord o k) 0#32) (IntOp.cmpi .sle (clipWord o k) 4095#32) = 1#1 := by
  have h1 : (0#32 : BitVec 32).sle (clipWord o k) = true := by
    simp only [BitVec.sle, clip_toInt ho hk, toInt_zero, decide_eq_true_eq]; omega
  have h2 : (clipWord o k).sle 4095#32 = true := by
    simp only [BitVec.sle, clip_toInt ho hk, toInt_4095, decide_eq_true_eq]; omega
  simp only [IntOp.cmpi, IntOp.andi, h1, h2]
  decide

/-- Where the tap's column exists, the clipped word read as a signed integer and clamped to the last column is it. -/
theorem clip_col {o k : Nat} (ho : o < 4096) (hk : k < 7) (h : 3 ≤ o + k ∧ o + k < 4096 + 3) :
    min (clipWord o k).toInt.toNat 4095 = o + k - 3 := by
  rw [clip_toInt ho hk]
  omega

end Cert.TapWords
-- ==== Proof.TapTable.lean ====
/-
  THE TABLE OF WEIGHTS THE HOST BUILDS IS THE TABLE OF TAPS.

  Before the region the host computes, from the [4096, 4096] matrix W, an [8, 4096] table. For output column o and
  tap k < 7 it forms the column word o + (k - 3) in 32-bit arithmetic (a column count down the rows plus the tap offsets
  along the columns), the word's range test 0 ≤ o + k - 3 < 4096, and the word clipped into [0, 4095]. Row by row it
  gathers the entry of W at the clipped column: the start index is the clipped word (a negative one would be wrapped by
  4096, but none is negative), the gather's own range test passes at every entry, and the start index read signed and
  clamped into the row is o + k - 3 wherever that column exists. The entries whose column word failed the range test are
  replaced by zero, the [4096, 7] array is transposed to [7, 4096], and one row of zeros is added below.

  Each stage is stated once, mirroring the operations; the buffer the region finds is the last stage; each stage is
  then read at an entry, by coordinates; and the last stage at (k, o) is W[o, o + k - 3] where k < 7 and the column
  exists, zero elsewhere: the table of taps.
-/
import proofs.«412182_j6811818132414_3_alg».proof.Proof.Gen.KernelIdeal.Frame.Runs
import proofs.«412182_j6811818132414_3_alg».proof.Proof.Banded
import proofs.«412182_j6811818132414_3_alg».proof.Proof.TapWords
import Idealize.ShloMosaic.Lib.StableHlo.Predicate
import Idealize.ShloMosaic.Lib.StableHlo.Run
import Idealize.ShloMosaic.Lib.KernelVsHost

noncomputable section

open Idealize.ShloMosaic Idealize.ShloMosaic.TcCoe Idealize.ShloMosaic.ValueIdx Idealize.SL.Sem
open Cert.KernelIdeal Cert.KernelIdeal.Gen

namespace Cert.KernelIdeal.TapTable

/-! ## The stages -/

/-- The tap offsets: minus three plus the position, for the seven taps. -/
def tapOff : (⟨S7, .i32⟩ : BufTy).Contents (Elt Ideal) :=
  addi (broadcastInDim S7 ![] bcast_S_S7 (constantI S_ 32 4294967293#32)) (iotaInDim S7 32 0)

/-- The column word: the output column down the rows plus the tap offset along the columns. -/
def colWord : (⟨S4096x7, .i32⟩ : BufTy).Contents (Elt Ideal) :=
  addi (broadcastInDim S4096x7 ![0, 1] bcast_S4096x1_S4096x7_0_1 (broadcastInDim S4096x1 ![0] bcast_S4096_S4096x1_0 (iotaInDim S4096 32 0)))
    (broadcastInDim S4096x7 ![0, 1] bcast_S1x7_S4096x7_0_1 (broadcastInDim S1x7 ![1] bcast_S7_S1x7_1 tapOff))

/-- The range test of the column word. -/
def validMask : (⟨S4096x7, .i1⟩ : BufTy).Contents (Elt Ideal) :=
  andi (cmpi .sge colWord (broadcastInDim S4096x7 ![] bcast_S_S4096x7 (constantI S_ 32 0#32)))
    (cmpi .slt colWord (broadcastInDim S4096x7 ![] bcast_S_S4096x7 (constantI S_ 32 4096#32)))

/-- The column word clipped into the row. -/
def clipped : (⟨S4096x7, .i32⟩ : BufTy).Contents (Elt Ideal) :=
  minsi (broadcastInDim S4096x7 ![] bcast_S_S4096x7 (id (constantI S_ 32 4095#32)))
    (maxsi (broadcastInDim S4096x7 ![] bcast_S_S4096x7 (id (constantI S_ 32 0#32))) colWord)

/-- The start indices: the clipped word, a negative one wrapped, as a stack of one-entry vectors. -/
def picked : (⟨S4096x7x1, .i32⟩ : BufTy).Contents (Elt Ideal) :=
  shapeCast S4096x7x1
    (select (cmpi .slt clipped (broadcastInDim S4096x7 ![] bcast_S_S4096x7 (constantI S_ 32 0#32)))
      (addi clipped (broadcastInDim S4096x7 ![] bcast_S_S4096x7 (constantI S_ 32 4096#32))) clipped)
    shapeCasts_S4096x7_S4096x7x1

/-- The start indices' own range test, all of each index vector's entries at once. -/
def inRange : (⟨S4096x7, .i1⟩ : BufTy).Contents (Elt Ideal) :=
  Host.reduce IntOp.andi
    (andi (cmpi .sge picked (broadcastInDim S4096x7x1 ![] bcast_S_S4096x7x1 (constantI S_ 32 0#32)))
      (cmpi .sle picked (broadcastInDim S4096x7x1 ![0, 1, 2] bcast_S1x1x1_S4096x7x1_0_1_2
        (broadcastInDim S1x1x1 ![2] bcast_S1_S1x1x1_2 (constantI S1 32 4095#32)))))
    (constantI S_ 1 1#1) reducesTo_S4096x7x1_S4096x7_d2 h_S_

/-- The entries gathered: row by row, the entry at the start index. -/
def gathered (W : (⟨S4096x4096, .f32⟩ : BufTy).Contents (Elt Ideal)) : (⟨S4096x7, .f32⟩ : BufTy).Contents (Elt Ideal) :=
  Host.gather gather_S4096x4096_S4096x7x1_S4096x7_n_1_0_0_1_2_11 W picked

/-- The gathered entries, those of an index out of range replaced. -/
def taken (W : (⟨S4096x4096, .f32⟩ : BufTy).Contents (Elt Ideal)) : (⟨S4096x7, .f32⟩ : BufTy).Contents (Elt Ideal) :=
  select inRange (gathered W) (broadcastInDim S4096x7 ![] bcast_S_S4096x7 (constant (F := Ideal) S_ .f32 0x7FC00000#32))

/-- The taps by output column: the entry where the column exists, zero elsewhere. -/
def masked (W : (⟨S4096x4096, .f32⟩ : BufTy).Contents (Elt Ideal)) : (⟨S4096x7, .f32⟩ : BufTy).Contents (Elt Ideal) :=
  select validMask (taken W) (broadcastInDim S4096x7 ![] bcast_S_S4096x7 (constant (F := Ideal) S_ .f32 0x00000000#32))

/-- The taps by tap. -/
def turned (W : (⟨S4096x4096, .f32⟩ : BufTy).Contents (Elt Ideal)) : (⟨S7x4096, .f32⟩ : BufTy).Contents (Elt Ideal) :=
  transpose S7x4096 [1, 0] (masked W) transposes_S4096x7_S7x4096_1_0

/-- The table: the seven rows of taps and a row of the integer zero converted. -/
def padded (W : (⟨S4096x4096, .f32⟩ : BufTy).Contents (Elt Ideal)) : (⟨S8x4096, .f32⟩ : BufTy).Contents (Elt Ideal) :=
  pad S8x4096 ![0, 0] ![1, 0] ![0, 0] (turned W) (sitofp (F := Ideal) .f32 (constantI S_ 32 0#32)) pads_S7x4096_S8x4096_010_000 h_S_

/-! ## The table is the last stage -/

/-- The host operations, composed, are the stages. -/
theorem V_eq (m : (ℓ : Loc nD τ sig) → Buf (Elt Ideal) ℓ) (c : Dev nD) :
    V m c main_v18 = padded (m ((c : Thread nD τ).loc main_arg1)) := by
  dsimp only [V]
  simp only [hostOps0, hostOps0_1, hostOps0_2, hostOps0_3, hostOps0_4, hostOps0_5, hostOps0_6, List.flatten_cons, List.flatten_nil, List.append_nil, List.cons_append, List.nil_append]
  after_results_simp
  simp only [StableHlo.TRef.ofBuf, StableHlo.TRef.toBuf, cast_eq]
  rfl

/-! ## The words at an entry -/

/-- The tap offset of tap k. -/
theorem tapOff_apply (k : Fin 7) : tapOff (ix1 k) = IntOp.addi 4294967293#32 (BitVec.ofNat 32 k.val) := rfl

/-- The column word at output column o and tap k. -/
theorem colWord_apply (o : Fin 4096) (k : Fin 7) : colWord (ix2 o k) = Cert.TapWords.idxWord o.val k.val := by
  have h1 : broadcastInDim S4096x7 ![0, 1] bcast_S4096x1_S4096x7_0_1
      (broadcastInDim S4096x1 ![0] bcast_S4096_S4096x1_0 (iotaInDim S4096 32 0)) (ix2 o k) = BitVec.ofNat 32 o.val :=
    StableHlo.Predicate.bcast_rows bcast_S4096_S4096x1_0 bcast_S4096x1_S4096x7_0_1 (iotaInDim S4096 32 0) o k
  have h2 : broadcastInDim S4096x7 ![0, 1] bcast_S1x7_S4096x7_0_1 (broadcastInDim S1x7 ![1] bcast_S7_S1x7_1 tapOff) (ix2 o k)
      = IntOp.addi 4294967293#32 (BitVec.ofNat 32 k.val) :=
    StableHlo.Predicate.bcast_cols bcast_S7_S1x7_1 bcast_S1x7_S4096x7_0_1 tapOff o k
  show IntOp.addi _ _ = _
  rw [h1, h2]
  rfl

/-- The range test at an entry. -/
theorem validMask_apply (o : Fin 4096) (k : Fin 7) : validMask (ix2 o k) = Cert.TapWords.validBit o.val k.val := by
  show IntOp.andi (IntOp.cmpi .sge (colWord (ix2 o k)) 0#32) (IntOp.cmpi .slt (colWord (ix2 o k)) 4096#32) = _
  rw [colWord_apply]
  rfl

/-- The clipped word at an entry. -/
theorem clipped_apply (o : Fin 4096) (k : Fin 7) : clipped (ix2 o k) = Cert.TapWords.clipWord o.val k.val := by
  show IntOp.minsi 4095#32 (IntOp.maxsi 0#32 (colWord (ix2 o k))) = _
  rw [colWord_apply]
  rfl

/-- The start index at an entry is the clipped word: it is never negative, so nothing wraps. -/
theorem picked_apply (o : Fin 4096) (k : Fin 7) (z : Fin 1) : picked (ix3 o k z) = Cert.TapWords.clipWord o.val k.val := by
  unfold picked
  rw [shapeCast_apply _ shapeCasts_S4096x7_S4096x7x1 (ix3 o k z) (ix2 o k) (by
    rw [Shape.rowMajor_val_two, Shape.rowMajor_val_three]
    have hz := z.isLt
    show o.val * 7 + k.val = (o.val * 7 + k.val) * 1 + z.val
    omega)]
  show Scalar.select (IntOp.cmpi .slt (clipped (ix2 o k)) 0#32) (IntOp.addi (clipped (ix2 o k)) 4096#32) (clipped (ix2 o k)) = _
  rw [clipped_apply]
  exact Cert.TapWords.pick_eq_clip o.isLt k.isLt

/-! ## The start indices' range test passes everywhere -/

/-- A fold by and over ones, from one, is one. -/
theorem foldl_andi_ones {ι : Type} (l : List ι) : l.foldl (fun r (_ : ι) => IntOp.andi r 1#1) 1#1 = 1#1 := by
  induction l with
  | nil => rfl
  | cons _ l ih => exact ih

/-- An and-reduction of an array of ones, from one, is one at every index. -/
theorem reduce_andi_ones {s t u : Shape} {axes : List (Fin s.rank)} (x : s.Idx → BitVec 1) (init : u.Idx → BitVec 1)
    (h : s.ReducesTo axes t) (hu : 0 < u.numel) (hx : ∀ i, x i = 1#1) (hi : init (Shape.Idx.first hu) = 1#1) (j : t.Idx) :
    Host.reduce IntOp.andi x init h hu j = 1#1 := by
  obtain rfl : x = fun _ => 1#1 := funext hx
  unfold Host.reduce
  rw [hi]
  exact foldl_andi_ones _

/-- Every start index is in range. -/
theorem inRange_apply (j : S4096x7.Idx) : inRange j = 1#1 := by
  unfold inRange
  refine reduce_andi_ones _ _ _ _ (fun i => ?_) rfl j
  obtain ⟨o, k, z, rfl⟩ : ∃ (o : Fin 4096) (k : Fin 7) (z : Fin 1), i = ix3 o k z := ⟨i 0, i 1, i 2, eq_ix3 i⟩
  show IntOp.andi (IntOp.cmpi .sge (picked (ix3 o k z)) 0#32) (IntOp.cmpi .sle (picked (ix3 o k z)) 4095#32) = 1#1
  rw [picked_apply]
  exact Cert.TapWords.inb_one o.isLt k.isLt

/-! ## The gather at an entry -/

/-- The gather at output column o and tap k reads row o of the matrix, at the start index read signed and clamped into the row. -/
theorem gathered_apply (W : (⟨S4096x4096, .f32⟩ : BufTy).Contents (Elt Ideal)) (o : Fin 4096) (k : Fin 7) (n : Fin 4096)
    (hn : min (picked (ix3 o k (0 : Fin 1))).toInt.toNat 4095 = n.val) :
    gathered W (ix2 o k) = W (ix2 o n) := by
  unfold gathered Host.gather
  refine congrArg W (funext fun a => Fin.ext ?_)
  match a with
  | ⟨0, h0⟩ =>
    show gather_S4096x4096_S4096x7x1_S4096x7_n_1_0_0_1_2_11.start (ix2 o k) picked ⟨0, h0⟩
      + gather_S4096x4096_S4096x7x1_S4096x7_n_1_0_0_1_2_11.batchCoord (ix2 o k) ⟨0, h0⟩
      + gather_S4096x4096_S4096x7x1_S4096x7_n_1_0_0_1_2_11.offCoord (ix2 o k) ⟨0, h0⟩ = o.val
    have hb : (⟨0, h0⟩ : Fin S4096x4096.rank) ∈ gather_S4096x4096_S4096x7x1_S4096x7_n_1_0_0_1_2_11.operandBatchingDims :=
      List.mem_singleton.mpr rfl
    rw [GatherDims.start_batching _ _ _ _ hb,
      GatherDims.offCoord_eq_zero _ _ _ (fun h => ((GatherDims.mem_sKept _ _).mp h).2 hb)]
    unfold GatherDims.batchCoord
    rw [dif_pos hb, Nat.zero_add, Nat.add_zero]
    rfl
  | ⟨1, h1⟩ =>
    show gather_S4096x4096_S4096x7x1_S4096x7_n_1_0_0_1_2_11.start (ix2 o k) picked ⟨1, h1⟩
      + gather_S4096x4096_S4096x7x1_S4096x7_n_1_0_0_1_2_11.batchCoord (ix2 o k) ⟨1, h1⟩
      + gather_S4096x4096_S4096x7x1_S4096x7_n_1_0_0_1_2_11.offCoord (ix2 o k) ⟨1, h1⟩ = n.val
    have hc : (⟨1, h1⟩ : Fin S4096x4096.rank) ∈ gather_S4096x4096_S4096x7x1_S4096x7_n_1_0_0_1_2_11.collapsedSliceDims :=
      List.mem_singleton.mpr rfl
    have hm : (⟨1, h1⟩ : Fin S4096x4096.rank) ∈ gather_S4096x4096_S4096x7x1_S4096x7_n_1_0_0_1_2_11.startIndexMap :=
      List.mem_singleton.mpr rfl
    have hnb : (⟨1, h1⟩ : Fin S4096x4096.rank) ∉ gather_S4096x4096_S4096x7x1_S4096x7_n_1_0_0_1_2_11.operandBatchingDims :=
      fun h => Nat.succ_ne_zero 0 (congrArg Fin.val (List.mem_singleton.mp h))
    rw [GatherDims.batchCoord_eq_zero _ _ _ hnb,
      GatherDims.offCoord_eq_zero _ _ _ (fun h => ((GatherDims.mem_sKept _ _).mp h).1 hc)]
    unfold GatherDims.start
    rw [dif_pos hm]
    have hsi : gather_S4096x4096_S4096x7x1_S4096x7_n_1_0_0_1_2_11.siIdx (ix2 o k)
        ⟨List.idxOf (⟨1, h1⟩ : Fin S4096x4096.rank) gather_S4096x4096_S4096x7x1_S4096x7_n_1_0_0_1_2_11.startIndexMap,
          List.idxOf_lt_length_iff.2 hm⟩ = ix3 o k (0 : Fin 1) := by
      funext b
      refine Fin.ext ?_
      match b with
      | ⟨0, _⟩ => rfl
      | ⟨1, _⟩ => rfl
      | ⟨2, _⟩ => rfl
    rw [hsi, Nat.add_zero, gather_S4096x4096_S4096x7x1_S4096x7_n_1_0_0_1_2_11.slice_collapsed _ hc]
    exact hn

/-- No gathered entry is replaced: every start index is in range. -/
theorem taken_apply (W : (⟨S4096x4096, .f32⟩ : BufTy).Contents (Elt Ideal)) (o : Fin 4096) (k : Fin 7) :
    taken W (ix2 o k) = gathered W (ix2 o k) := by
  unfold taken
  rw [select_apply, inRange_apply, select_one]

/-! ## The taps at an entry -/

/-- Where the tap's column exists the masked entry is the matrix's there. -/
theorem masked_of_valid (W : (⟨S4096x4096, .f32⟩ : BufTy).Contents (Elt Ideal)) (o : Fin 4096) (k : Fin 7)
    (h : 3 ≤ o.val + k.val ∧ o.val + k.val < 4096 + 3) :
    masked W (ix2 o k) = W (ix2 o ⟨o.val + k.val - 3, by omega⟩) := by
  unfold masked
  rw [select_apply, validMask_apply, Cert.TapWords.valid_one o.isLt k.isLt h, select_one, taken_apply]
  refine gathered_apply W o k _ ?_
  rw [picked_apply]
  exact Cert.TapWords.clip_col o.isLt k.isLt h

/-- Where it does not the masked entry is zero. -/
theorem masked_of_not_valid (W : (⟨S4096x4096, .f32⟩ : BufTy).Contents (Elt Ideal)) (o : Fin 4096) (k : Fin 7)
    (h : ¬(3 ≤ o.val + k.val ∧ o.val + k.val < 4096 + 3)) :
    masked W (ix2 o k) = (0 : EReal) := by
  unfold masked
  rw [select_apply, validMask_apply, Cert.TapWords.valid_zero o.isLt k.isLt h, select_zero]
  exact Ideal.ofBits_zero_f32

/-- The taps by tap: the transpose at an entry. -/
theorem turned_apply (W : (⟨S4096x4096, .f32⟩ : BufTy).Contents (Elt Ideal)) (k : Fin 7) (o : Fin 4096) :
    turned W (ix2 k o) = masked W (ix2 o k) :=
  transpose_apply _ (masked W) transposes_S4096x7_S7x4096_1_0 (ix2 k o) (ix2 o k) fun b =>
    match b with | ⟨0, _⟩ => rfl | ⟨1, _⟩ => rfl

/-- A row of the table above the last is the row of taps. -/
theorem padded_of_lt (W : (⟨S4096x4096, .f32⟩ : BufTy).Contents (Elt Ideal)) (k : Fin 8) (o : Fin 4096) (hk : k.val < 7) :
    padded W (ix2 k o) = turned W (ix2 ⟨k.val, hk⟩ o) :=
  pad_apply_of_inside _ _ _ (turned W) _ pads_S7x4096_S8x4096_010_000 h_S_ (ix2 k o) (ix2 ⟨k.val, hk⟩ o) fun a =>
    match a with
    | ⟨0, _⟩ => by show k.val = 0 + k.val * (0 + 1); omega
    | ⟨1, _⟩ => by show o.val = 0 + o.val * (0 + 1); omega

/-- The last row of the table is zero. -/
theorem padded_of_not_lt (W : (⟨S4096x4096, .f32⟩ : BufTy).Contents (Elt Ideal)) (k : Fin 8) (o : Fin 4096) (hk : ¬k.val < 7) :
    padded W (ix2 k o) = (0 : EReal) := by
  unfold padded
  rw [pad_apply_of_not_inside _ _ _ (turned W) _ pads_S7x4096_S8x4096_010_000 h_S_ (ix2 k o) ⟨0, by decide⟩ (by
    show ¬(0 ≤ k.val ∧ (k.val - 0) % (0 + 1) = 0 ∧ (k.val - 0) / (0 + 1) < 7)
    omega)]
  show (((0#32 : BitVec 32).toInt : ℝ) : EReal) = 0
  simp

/-! ## The table -/

/-- The table of taps at an entry whose column exists. -/
theorem taps_of_in (W : (⟨S4096x4096, .f32⟩ : BufTy).Contents (Elt Ideal)) (k : Fin 8) (o : Fin 4096)
    (h : k.val < 7 ∧ 3 ≤ o.val + k.val ∧ o.val + k.val < 4096 + 3) :
    Cert.Banded.taps W (ix2 k o) = W (ix2 o ⟨o.val + k.val - 3, by omega⟩) := by
  unfold Cert.Banded.taps
  exact dif_pos h

/-- The table of taps at any other entry. -/
theorem taps_of_out (W : (⟨S4096x4096, .f32⟩ : BufTy).Contents (Elt Ideal)) (k : Fin 8) (o : Fin 4096)
    (h : ¬(k.val < 7 ∧ 3 ≤ o.val + k.val ∧ o.val + k.val < 4096 + 3)) :
    Cert.Banded.taps W (ix2 k o) = 0 := by
  unfold Cert.Banded.taps
  exact dif_neg h

/-- THE TABLE the region finds is the table of taps of the weight matrix as launched: rows 0 … 6 hold `W[o, o + k - 3]` where that
    column exists and zero where it does not, row 7 is zero. -/
theorem table_eq (m : (ℓ : Loc nD τ sig) → Buf (Elt Ideal) ℓ) (c : Dev nD) :
    (V m c main_v18 : S8x4096.Idx → EReal) = Cert.Banded.taps (m ((c : Thread nD τ).loc main_arg1)) := by
  rw [V_eq]
  funext j
  obtain ⟨k, o, rfl⟩ : ∃ (k : Fin 8) (o : Fin 4096), j = ix2 k o := ⟨j 0, j 1, eq_ix2 j⟩
  by_cases hk : k.val < 7
  · rw [padded_of_lt _ k o hk, turned_apply]
    by_cases h : 3 ≤ o.val + k.val ∧ o.val + k.val < 4096 + 3
    · rw [masked_of_valid _ o ⟨k.val, hk⟩ h, taps_of_in _ k o ⟨hk, h⟩]
    · rw [masked_of_not_valid _ o ⟨k.val, hk⟩ h, taps_of_out _ k o (fun hh => h hh.2)]
  · rw [padded_of_not_lt _ k o hk, taps_of_out _ k o (fun hh => hk hh.1)]

end Cert.KernelIdeal.TapTable

end
-- ==== Proof.KernelValue.lean ====
/-
  The kernel program's result array, over the extended reals: the dense banded form of its arguments.

  The grid has 16 points; point `t` stages rows `[512 t, 512 t + 512)` of `x` and the whole `[8, 4096]` table, and writes
  back rows `[512 t, 512 t + 512)` of the result.  What the body leaves in the output block is the tap form of the two
  staged blocks; the tap form at an entry reads `x` only along the entry's own row and the table only along its own
  column, and a rotation stays inside a row, so the tap form of the blocks at `(a, q)` is the tap form of the whole
  arrays at `(512 t + a, q)`: what point `t` writes back is its block of ONE whole-array function.  The 16 blocks cover the
  array, so the array ends holding that function; the table is the table of taps of `W`, and the tap form over it is
  the dense form.
-/
import proofs.«412182_j6811818132414_3_alg».proof.Proof.KIValue
import proofs.«412182_j6811818132414_3_alg».proof.Proof.KernelBlock
import proofs.«412182_j6811818132414_3_alg».proof.Proof.TapTable
import Idealize.ShloMosaic.Lib.Pipeline.Value

noncomputable section

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.GenP Cert.Banded

namespace Cert.KernelIdeal.Taps

/-- The tap form of a window of rows is the tap form of the whole array on those rows: it reads `x` along one row and
    the table along one column. -/
theorem tapSum_window {n N : Nat} (xb : (⟨2, ![n, 4096]⟩ : Shape).Idx → EReal) (xa : (⟨2, ![N, 4096]⟩ : Shape).Idx → EReal)
    (wb wa : (⟨2, ![8, 4096]⟩ : Shape).Idx → EReal) (off : Nat)
    (hx : ∀ (a : Fin n) (q : Fin 4096) (h : off + a.val < N), xb (ix2 a q) = xa (ix2 ⟨off + a.val, h⟩ q))
    (hw : ∀ (k : Fin 8) (q : Fin 4096), wb (ix2 k q) = wa (ix2 k q))
    (a : Fin n) (q : Fin 4096) (h : off + a.val < N) :
    tapSum xb wb (ix2 a q) = tapSum xa wa (ix2 ⟨off + a.val, h⟩ q) := by
  show xb (ix2 a q) * wb (ix2 3 q)
      + xb (ix2 a (back 3 q)) * wb (ix2 0 q)
      + xb (ix2 a (back 2 q)) * wb (ix2 1 q)
      + xb (ix2 a (back 1 q)) * wb (ix2 2 q)
      + xb (ix2 a (back 4095 q)) * wb (ix2 4 q)
      + xb (ix2 a (back 4094 q)) * wb (ix2 5 q)
      + xb (ix2 a (back 4093 q)) * wb (ix2 6 q)
    = xa (ix2 ⟨off + a.val, h⟩ q) * wa (ix2 3 q)
      + xa (ix2 ⟨off + a.val, h⟩ (back 3 q)) * wa (ix2 0 q)
      + xa (ix2 ⟨off + a.val, h⟩ (back 2 q)) * wa (ix2 1 q)
      + xa (ix2 ⟨off + a.val, h⟩ (back 1 q)) * wa (ix2 2 q)
      + xa (ix2 ⟨off + a.val, h⟩ (back 4095 q)) * wa (ix2 4 q)
      + xa (ix2 ⟨off + a.val, h⟩ (back 4094 q)) * wa (ix2 5 q)
      + xa (ix2 ⟨off + a.val, h⟩ (back 4093 q)) * wa (ix2 6 q)
  simp only [hx _ _ h, hw]

variable (m : (ℓ : Loc nD τ sig) → Buf (Elt Ideal) ℓ) (ρ : Dev nD → PrngReg)

/-- The arrays as the region finds them and the blocks a point stages, as functions of their indices. -/
abbrev xarr (c : Dev nD) : S8192x4096.Idx → EReal := V m c main_arg0
abbrev warr (c : Dev nD) : S8x4096.Idx → EReal := V m c main_v18
abbrev xblk (c : Dev nD) (t : Fin cfg0.N) : S512x4096.Idx → EReal := iblk m c 0 t
abbrev wblk (c : Dev nD) (t : Fin cfg0.N) : S8x4096.Idx → EReal := iblk m c 1 t

/-- The index maps, decided over the 16 points: the row blocks of `x` and of the result move with the point, everything
    else stays at block 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The block of `x` point `t` stages is rows `[512 t, 512 t + 512)` of `x`. -/
theorem xblk_apply (c : Dev nD) (t : Fin cfg0.N) (a : Fin 512) (q : Fin 4096) (h : 512 * t.val + a.val < 8192) :
    xblk m c t (ix2 a q) = xarr m c (ix2 ⟨512 * t.val + a.val, h⟩ q) := by
  obtain ⟨e00, e01, -, -, -, -⟩ := idx_facts t
  show xarr m c (((cfg0.win 0).blk t).view.emb (ix2 a q)) = _
  refine congrArg (xarr m c) (funext fun b => Fin.ext ?_)
  match b with
  | ⟨0, _⟩ =>
    show win0_0.index t (0 : Fin 2) * 512 + 1 * a.val = 512 * t.val + a.val
    rw [e00]; omega
  | ⟨1, _⟩ =>
    show win0_0.index t (1 : Fin 2) * 4096 + 1 * q.val = q.val
    rw [e01]; omega

/-- The block of the table every point stages is the whole table. -/
theorem wblk_apply (c : Dev nD) (t : Fin cfg0.N) (k : Fin 8) (q : Fin 4096) :
    wblk m c t (ix2 k q) = warr m c (ix2 k q) := by
  obtain ⟨-, -, e10, e11, -, -⟩ := idx_facts t
  show warr m c (((cfg0.win 1).blk t).view.emb (ix2 k q)) = _
  refine congrArg (warr m c) (funext fun b => Fin.ext ?_)
  match b with
  | ⟨0, _⟩ =>
    show win0_1.index t (0 : Fin 2) * 8 + 1 * k.val = k.val
    rw [e10]; omega
  | ⟨1, _⟩ =>
    show win0_1.index t (1 : Fin 2) * 4096 + 1 * q.val = q.val
    rw [e11]; omega

/-- WHAT POINT `t` WRITES BACK is its block of the tap form of the arrays as the region finds them. -/
theorem flushed_eq (c : Dev nD) (t : Fin cfg0.N) :
    (dats m 0 c).flushed 2 t = ((cfg0.win 2).blk t).view.read (Elt Ideal) (tapSum (xarr m c) (warr m c)) := by
  rw [Cert.KernelIdeal.ValueP.flushed2_A m c t,
    out_eq (ms0_0 t) (hs0_0 t) (ms0_1 t) (hs0_1 t) (iblk m c 0 t) (iblk m c 1 t) c (grid0.coords t) (ms0_2 t) (hs0_2 t)]
  obtain ⟨-, -, -, -, e20, e21⟩ := idx_facts t
  have hN : cfg0.N = 16 := N_0
  have ht : t.val < 16 := hN ▸ t.isLt
  funext j
  obtain ⟨a, q, rfl⟩ : ∃ (a : Fin 512) (q : Fin 4096), j = ix2 a q := ⟨j 0, j 1, eq_ix2 j⟩
  have hr : 512 * t.val + a.val < 8192 := by have := a.isLt; omega
  have hemb : ((cfg0.win 2).blk t).view.emb (ix2 a q) = (ix2 ⟨512 * t.val + a.val, hr⟩ q : S8192x4096.Idx) := by
    funext b
    refine Fin.ext ?_
    match b with
    | ⟨0, _⟩ =>
      show win0_2.index t (0 : Fin 2) * 512 + 1 * a.val = 512 * t.val + a.val
      rw [e20]; omega
    | ⟨1, _⟩ =>
      show win0_2.index t (1 : Fin 2) * 4096 + 1 * q.val = q.val
      rw [e21]; omega
  show tapSum (xblk m c t) (wblk m c t) (ix2 a q) = tapSum (xarr m c) (warr m c) (((cfg0.win 2).blk t).view.emb (ix2 a q))
  rw [hemb]
  exact tapSum_window (xblk m c t) (xarr m c) (wblk m c t) (warr m c) (512 * t.val)
    (fun a' q' h' => xblk_apply m c t a' q' h') (fun k' q' => wblk_apply m c t k' q') a q hr

/-- An index of the result is in point `t`'s block iff each coordinate is in the block's range on its axis. -/
theorem mem_blk (t : Fin cfg0.N) (i : S8192x4096.Idx) :
    i ∈ ((cfg0.win 2).blk t).view.set ↔ ∀ a : Fin 2, win0_2.index t a * S512x4096.size a ≤ (i a).val
      ∧ (i a).val < win0_2.index t a * S512x4096.size a + S512x4096.size a := by
  show i ∈ ((View.whole main_v19).slice (win0_2.rect t)).set ↔ _
  rw [View.set_slice_whole, Rect.mem_set_unit]
  exact Iff.rfl

/-- Every index of the result is in some point's block: the point that stages its row. -/
theorem cover (i : S8192x4096.Idx) :
    ∃ t : Fin cfg0.N, (cfg0.win 2).flush t = true ∧ i ∈ ((cfg0.win 2).blk t).view.set := by
  have hi0 : (i (0 : Fin 2)).val < 8192 := (i (0 : Fin 2)).isLt
  have hi1 : (i (1 : Fin 2)).val < 4096 := (i (1 : Fin 2)).isLt
  have hN : cfg0.N = 16 := N_0
  have hlt : (i (0 : Fin 2)).val / 512 < cfg0.N := by rw [hN]; omega
  obtain ⟨-, -, -, -, e20, e21⟩ := idx_facts ⟨(i (0 : Fin 2)).val / 512, hlt⟩
  refine ⟨⟨(i (0 : Fin 2)).val / 512, hlt⟩, flush0_2 _, ?_⟩
  rw [mem_blk]
  intro a
  match a with
  | ⟨0, _⟩ =>
    show win0_2.index ⟨(i (0 : Fin 2)).val / 512, hlt⟩ (0 : Fin 2) * 512 ≤ (i (0 : Fin 2)).val
      ∧ (i (0 : Fin 2)).val < win0_2.index ⟨(i (0 : Fin 2)).val / 512, hlt⟩ (0 : Fin 2) * 512 + 512
    rw [e20]
    show (i (0 : Fin 2)).val / 512 * 512 ≤ (i (0 : Fin 2)).val ∧ (i (0 : Fin 2)).val < (i (0 : Fin 2)).val / 512 * 512 + 512
    omega
  | ⟨1, _⟩ =>
    show win0_2.index ⟨(i (0 : Fin 2)).val / 512, hlt⟩ (1 : Fin 2) * 4096 ≤ (i (1 : Fin 2)).val
      ∧ (i (1 : Fin 2)).val < win0_2.index ⟨(i (0 : Fin 2)).val / 512, hlt⟩ (1 : Fin 2) * 4096 + 4096
    rw [e21]
    omega

/-- THE RESULT ARRAY after the run: the tap form of the arrays as the region finds them. -/
theorem final (c : Dev nD) : (dats m 0 c).arrAt 2 cfg0.N = tapSum (xarr m c) (warr m c) :=
  (dats m 0 c).arrAt_eq_of_cover 2 (tapSum (xarr m c) (warr m c)) (fun t _ => flushed_eq m c t) cover

/-- … which is the dense banded form of the program's arguments: `x` reaches the region as launched, the table is the
    table of taps of `W`, and the tap form over that table is the dense form. -/
theorem final_dense (c : Dev nD) :
    (dats m 0 c).arrAt 2 cfg0.N
      = dense (m ((c : Thread nD τ).loc main_arg0)) (m ((c : Thread nD τ).loc main_arg1)) := by
  rw [final]
  have hx : xarr m c = m ((c : Thread nD τ).loc main_arg0) := V_main_arg0 m c
  have hw : warr m c = taps (m ((c : Thread nD τ).loc main_arg1)) := Cert.KernelIdeal.TapTable.table_eq m c
  rw [hx, hw, tapSum_taps_eq_dense]

/-- THE KERNEL PROGRAM'S RUN: every weakly fair execution ends with the result array at the dense banded form of the
    arguments and the arguments as launched. -/
theorem run : θ_run defs (onTc (τ := τ) (main (F := Ideal))) ⟨m, fun _ => 0, ρ⟩ fun r => ∀ c : Dev nD,
      r.2.mem ((c : Thread nD τ).loc main_v19) = dense (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final_dense m c), (h c).2⟩)
    (Cert.KernelIdeal.ValueP.run_blocks m ρ)

end Cert.KernelIdeal.Taps

end
-- ==== Proof.RefDense.lean ====
/-
  The reference program's result is the dense banded form.

  The reference builds a mask over the weight matrix: at row o and column i (both below 4096) it compares the word of i
  against the words of o - 3 and of o + 3 as SIGNED 32-bit integers, takes the conjunction of (i ≥ o - 3) and
  (i ≤ o + 3) as a one-bit word, and converts that bit to a float: 1.0 where it is set, 0.0 where it is clear.  The sum
  o + 3 stays far below 2³¹, so it reads signed as o + 3; the difference o - 3 wraps below zero for o < 3, and a
  wrapped word read signed is the negative integer o - 3 itself.  Both compares are therefore compares of the integers
  o - 3 ≤ i and i ≤ o + 3, which over the naturals are o ≤ i + 3 and i ≤ o + 3: the band.  The masked weights are then
  contracted with the rows of x, which is the dense form's sum term by term.
-/
import proofs.«412182_j6811818132414_3_alg».proof.Proof.Gen.ReferenceIdeal.Read
import proofs.«412182_j6811818132414_3_alg».proof.Proof.Banded
import Idealize.ShloMosaic.Lib.StableHlo.Predicate

noncomputable section

open Idealize.ShloMosaic Idealize.ShloMosaic.ValueIdx
open Cert.ReferenceIdeal Cert.ReferenceIdeal.Gen

namespace Cert.ReferenceIdeal.Dense

open Idealize.ShloMosaic.StableHlo.Predicate in
/-- The word of a column index less three, read signed, is the integer o - 3 (negative for o < 3: the wrapped word). -/
theorem toInt_sub_three (o : Nat) (ho : o < 4096) : (IntOp.subi (BitVec.ofNat 32 o) 3#32).toInt = (o : Int) - 3 := by
  unfold IntOp.subi
  have h3 : (3#32 : BitVec 32).toInt = 3 := by decide
  rw [BitVec.toInt_sub, toInt_ofNat_small o (by omega), h3]
  unfold Int.bmod
  simp only [Nat.reducePow, Nat.cast_ofNat]
  split <;> omega

open Idealize.ShloMosaic.StableHlo.Predicate in
/-- The word of a column index plus three, read signed, is the integer o + 3: the sum does not wrap. -/
theorem toInt_add_three (o : Nat) (ho : o < 4096) : (IntOp.addi (BitVec.ofNat 32 o) 3#32).toInt = (o : Int) + 3 := by
  unfold IntOp.addi
  have h3 : (3#32 : BitVec 32).toInt = 3 := by decide
  rw [BitVec.toInt_add, toInt_ofNat_small o (by omega), h3]
  unfold Int.bmod
  simp only [Nat.reducePow, Nat.cast_ofNat]
  split <;> omega

open Idealize.ShloMosaic.StableHlo.Predicate in
/-- The mask's bit at row o, column i: the conjunction of the two signed compares is set exactly on the band. -/
theorem mask_word (o i : Nat) (ho : o < 4096) (hi : i < 4096) :
    IntOp.andi (IntOp.cmpi .sge (BitVec.ofNat 32 i) (IntOp.subi (BitVec.ofNat 32 o) 3#32))
        (IntOp.cmpi .sle (BitVec.ofNat 32 i) (IntOp.addi (BitVec.ofNat 32 o) 3#32))
      = if o ≤ i + 3 ∧ i ≤ o + 3 then 1#1 else 0#1 := by
  unfold IntOp.cmpi IntOp.andi
  simp only [BitVec.sle, toInt_sub_three o ho, toInt_add_three o ho, toInt_ofNat_small i (by omega)]
  have e1 : decide ((o : Int) - 3 ≤ (i : Int)) = decide (o ≤ i + 3) := decide_eq_decide.mpr (by omega)
  have e2 : decide ((i : Int) ≤ (o : Int) + 3) = decide (i ≤ o + 3) := decide_eq_decide.mpr (by omega)
  rw [e1, e2]
  by_cases h1 : o ≤ i + 3 <;> by_cases h2 : i ≤ o + 3 <;> simp [h1, h2]

/-- A set bit converts to one. -/
theorem uitofp_one : FloatOps.uitofp (F := Ideal) .f32 (1#1 : BitVec 1) = (1 : EReal) := by
  show ((((1#1 : BitVec 1).toNat : ℕ) : ℝ) : EReal) = 1
  simp

/-- A clear bit converts to zero. -/
theorem uitofp_zero : FloatOps.uitofp (F := Ideal) .f32 (0#1 : BitVec 1) = (0 : EReal) := by
  show ((((0#1 : BitVec 1).toNat : ℕ) : ℝ) : EReal) = 0
  simp

/-- The masked weight at row o, column k is the weight times the band's indicator. -/
theorem masked_apply (x1 : (⟨S4096x4096, .f32⟩ : BufTy).Contents (Elt Ideal)) (o k : Fin 4096) :
    Cert.ReferenceIdeal.Read.val_main_v16 (F := Ideal) x1 (ix2 o k) = x1 (ix2 o k) * Cert.Banded.band o k := by
  simp only [Read.val_main_v16_apply, Read.val_main_v15_apply, Read.val_main_v14_apply, Read.val_main_v8_apply,
    Read.val_main_v13_apply, Read.val_main_v6_apply, Read.val_main_v7_apply, Read.val_main_v11_apply,
    Read.val_main_v12_apply, Read.val_main_v3_apply, Read.val_main_v5_apply, Read.val_main_v10_apply,
    Read.val_main_v1_apply, Read.val_main_v4_apply, Read.val_main_v9_apply, Read.val_main_v2_apply,
    Read.val_main_v0_apply, Read.val_main_c_apply, Read.val_main_c_0_apply]
  show x1 (ix2 o k) * FloatOps.uitofp (F := Ideal) .f32
      (IntOp.andi (IntOp.cmpi .sge (BitVec.ofNat 32 k.val) (IntOp.subi (BitVec.ofNat 32 o.val) 3#32))
        (IntOp.cmpi .sle (BitVec.ofNat 32 k.val) (IntOp.addi (BitVec.ofNat 32 o.val) 3#32))) = _
  rw [mask_word o.val k.val o.isLt k.isLt]
  unfold Cert.Banded.band
  by_cases h : o.val ≤ k.val + 3 ∧ k.val ≤ o.val + 3
  · rw [if_pos h, if_pos h, uitofp_one]
  · rw [if_neg h, if_neg h, uitofp_zero]

/-- The reference's result is the dense form: entry by entry the same sum, the masked weight being the weight times the
    band's indicator. -/
theorem ref_eq_dense (x0 : (⟨S8192x4096, .f32⟩ : BufTy).Contents (Elt Ideal)) (x1 : (⟨S4096x4096, .f32⟩ : BufTy).Contents (Elt Ideal)) :
    Cert.ReferenceIdeal.Read.val_main_v17 (F := Ideal) x0 x1 = Cert.Banded.dense x0 x1 := by
  funext i
  rw [Read.val_main_v17_apply]
  unfold Cert.Banded.dense
  refine Finset.sum_congr rfl fun k _ => ?_
  have el : Read.lidx_main_v17 i k = ix2 (i 0) k :=
    funext fun a => Fin.ext (by match a with | ⟨0, _⟩ => rfl | ⟨1, _⟩ => rfl)
  have er : Read.ridx_main_v17 i k = ix2 (i 1) k :=
    funext fun a => Fin.ext (by match a with | ⟨0, _⟩ => rfl | ⟨1, _⟩ => rfl)
  rw [el, er]
  exact congrArg (fun t => x0 (ix2 (i 0) k) * t) (masked_apply x1 (i 1) k)

end Cert.ReferenceIdeal.Dense

end
-- ==== Proof.lean ====
/-
  A banded linear layer: `out[b, o] = ∑ i, x[b, i] * (W[o, i] * mask[o, i])` with `mask` the band `|o - i| ≤ 3`, for
  `x : [8192, 4096]` and `W : [4096, 4096]`.

  The reference masks `W` and contracts (the DENSE form).  The kernel never forms the masked matrix: on the host it keeps,
  per output column `o`, the seven weights `W[o, o + k - 3]` in an `[8, 4096]` table (zero where the column `o + k - 3` does not
  exist, and a zero eighth row), and in the body, for each block of 512 rows of `x` in two chunks of 256, it adds seven
  products of a table row with the chunk rotated along its columns (the TAP form).  A rotation wraps around the end of
  a row, but a wrapped entry only meets a table entry that is exactly zero.

  Over the extended reals the two forms are equal entry by entry, with no use of the inputs' finiteness: a product
  with an exact zero is zero for every extended real, and the dense sum regroups along the seven diagonals
  `i + 3 = o + k` (`Banded.tapSum_taps_eq_dense`).  The kernel's side: the host's table is the table of taps
  (`TapTable.table_eq`); each trip of the body's loop leaves its chunk of the output block at the seven-term sum
  (`Taps.tripPieces_eq`, `Taps.out_eq`); the 16 blocks tile the result (`Taps.run`).  The reference's side: its mask's signed
  compares of 32-bit words read as the band (`Dense.ref_eq_dense`).  The idealization rewrote nothing, so `preserves` has
  nothing to state.
-/
import proofs.«412182_j6811818132414_3_alg».proof.Defs
import proofs.«412182_j6811818132414_3_alg».proof.Proof.KFrame
import proofs.«412182_j6811818132414_3_alg».proof.Proof.KernelValue
import proofs.«412182_j6811818132414_3_alg».proof.Proof.RefDense
import proofs.«412182_j6811818132414_3_alg».proof.Proof.Gen.Kernel
import proofs.«412182_j6811818132414_3_alg».proof.Proof.Gen.KernelIdeal
import proofs.«412182_j6811818132414_3_alg».proof.Proof.Gen.ReferenceIdeal
import proofs.«412182_j6811818132414_3_alg».proof.Proof.Gen.ReferenceIdeal.Run
import proofs.«412182_j6811818132414_3_alg».proof.Proof.Gen.Pre_finite_inputs
import Idealize.ShloMosaic.Adequacy
import Idealize.ShloMosaic.Init

noncomputable section

namespace Cert.Proof

open Idealize.ShloMosaic Idealize.ShloMosaic.TcCoe Idealize.SL.Sem

/-- The kernel as printed runs and leaves its arguments alone. -/
theorem frame_kernel : Cert.frame_Kernel := fun m ρ _ => Cert.Kernel.GenP.frame m ρ

/-- So does its idealization. -/
theorem frame_kernelIdeal : Cert.frame_KernelIdeal := fun m ρ _ => Cert.KernelIdeal.GenP.frame m ρ

/-- So does the reference: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on `x` and `W` both programs end with the dense banded form of them: the kernel's tap form
    is it by the regrouping law, the reference's masked contraction is it term by term. -/
theorem algebraic : Cert.algebraic_KernelIdeal_ReferenceIdeal := by
  intro m ρ m' ρ' _ hagree
  refine ⟨fun c => Cert.Banded.dense (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Taps.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v17_eq _ _).trans (Cert.ReferenceIdeal.Dense.ref_eq_dense _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
